-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x56x56 : Shape := ⟨4, ![32, 256, 56, 56]⟩
abbrev S256x2 : Shape := ⟨2, ![256, 2]⟩
abbrev S_ : Shape := ⟨0, ![]⟩

class Facts : Prop where
  bcast_S_S32x256x56x56 : S_.BroadcastsInDim S32x256x56x56 (![] : Fin 0 → Fin S32x256x56x56.rank)
  reducesTo_S32x256x56x56_S_d0_1_2_3 : S32x256x56x56.ReducesTo [0, 1, 2, 3] S_
  h_S_ : 0 < S_.numel
  bcast_S_S256x2 : S_.BroadcastsInDim S256x2 (![] : Fin 0 → Fin S256x2.rank)
  reducesTo_S256x2_S_d0_1 : S256x2.ReducesTo [0, 1] S_

variable [Facts]

def fn {F : FTy → Type} [FloatOps F] (main_arg0 : FVec F S32x256x56x56 .f32) (main_arg1 : IVec S256x2 32) : IVec S_ 1 :=
  let main_v0 : FVec F S32x256x56x56 .f32 := Host.absf main_arg0
  let main_cst : FVec F S_ .f32 := constant S_ .f32 0x7F800000#32
  let main_v1 : FVec F S32x256x56x56 .f32 := broadcastInDim S32x256x56x56 ![] bcast_S_S32x256x56x56 main_cst
  let main_v2 : IVec S32x256x56x56 1 := cmpf .olt main_v0 main_v1
  let main_c : IVec S_ 1 := constantI S_ 1 1#1
  let main_v3 : IVec S_ 1 := (fun x v => Host.reduce IntOp.andi x v reducesTo_S32x256x56x56_S_d0_1_2_3 h_S_) main_v2 main_c
  let main_c_0 : IVec S_ 32 := constantI S_ 32 4294967295#32
  let main_v4 : IVec S256x2 32 := broadcastInDim S256x2 ![] bcast_S_S256x2 main_c_0
  let main_v5 : IVec S256x2 1 := cmpi .sge main_arg1 main_v4
  let main_c_1 : IVec S_ 1 := constantI S_ 1 1#1
  let main_v6 : IVec S_ 1 := (fun x v => Host.reduce IntOp.andi x v reducesTo_S256x2_S_d0_1 h_S_) main_v5 main_c_1
  let main_v7 : IVec S_ 1 := andi main_v3 main_v6
  let main_c_2 : IVec S_ 32 := constantI S_ 32 1#32
  let main_v8 : IVec S256x2 32 := broadcastInDim S256x2 ![] bcast_S_S256x2 main_c_2
  let main_v9 : IVec S256x2 1 := cmpi .sle main_arg1 main_v8
  let main_c_3 : IVec S_ 1 := constantI S_ 1 1#1
  let main_v10 : IVec S_ 1 := (fun x v => Host.reduce IntOp.andi x v reducesTo_S256x2_S_d0_1 h_S_) main_v9 main_c_3
  let main_v11 : IVec S_ 1 := andi main_v7 main_v10
  main_v11
-- ==== Kernel.lean ====
abbrev S32x256x56x56 : Shape := ⟨4, ![32, 256, 56, 56]⟩
abbrev S256x2 : Shape := ⟨2, ![256, 2]⟩
abbrev S_ : Shape := ⟨0, ![]⟩
abbrev S32x256x58x58 : Shape := ⟨4, ![32, 256, 58, 58]⟩
abbrev S256x1 : Shape := ⟨2, ![256, 1]⟩
abbrev S256 : Shape := ⟨1, ![256]⟩
abbrev S1x256 : Shape := ⟨2, ![1, 256]⟩
abbrev S9x256 : Shape := ⟨2, ![9, 256]⟩
abbrev S9x256x1x1 : Shape := ⟨4, ![9, 256, 1, 1]⟩
abbrev S8x16x58x58 : Shape := ⟨4, ![8, 16, 58, 58]⟩
abbrev S9x16x1x1 : Shape := ⟨4, ![9, 16, 1, 1]⟩
abbrev S8x16x56x56 : Shape := ⟨4, ![8, 16, 56, 56]⟩
abbrev S1x16x1x1 : Shape := ⟨4, ![1, 16, 1, 1]⟩
abbrev S16x1x1 : Shape := ⟨3, ![16, 1, 1]⟩

abbrev nBuf : Space → Nat
  | .hbm => 125
  | .vmem => 6
  | .smem => 0
  | _ => 0

abbrev bufTy : (tb : Table) → Fin (tcTables nBuf tb) → BufTy
  | .hbm, ⟨0, _⟩ => ⟨S32x256x56x56, .f32⟩
  | .hbm, ⟨1, _⟩ => ⟨S256x2, .i32⟩
  | .hbm, ⟨2, _⟩ => ⟨S_, .i32⟩
  | .hbm, ⟨3, _⟩ => ⟨S_, .f32⟩
  | .hbm, ⟨4, _⟩ => ⟨S32x256x58x58, .f32⟩
  | .hbm, ⟨5, _⟩ => ⟨S256x1, .i32⟩
  | .hbm, ⟨6, _⟩ => ⟨S256, .i32⟩
  | .hbm, ⟨7, _⟩ => ⟨S_, .i32⟩
  | .hbm, ⟨8, _⟩ => ⟨S256, .i32⟩
  | .hbm, ⟨9, _⟩ => ⟨S256, .i1⟩
  | .hbm, ⟨10, _⟩ => ⟨S256x1, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i1⟩
  | .hbm, ⟨16, _⟩ => ⟨S256, .f32⟩
  | .hbm, ⟨17, _⟩ => ⟨S256x1, .i32⟩
  | .hbm, ⟨18, _⟩ => ⟨S256, .i32⟩
  | .hbm, ⟨19, _⟩ => ⟨S_, .i32⟩
  | .hbm, ⟨20, _⟩ => ⟨S256, .i32⟩
  | .hbm, ⟨21, _⟩ => ⟨S256, .i1⟩
  | .hbm, ⟨22, _⟩ => ⟨S256x1, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S256, .i1⟩
  | .hbm, ⟨28, _⟩ => ⟨S256, .f32⟩
  | .hbm, ⟨29, _⟩ => ⟨S256x1, .i32⟩
  | .hbm, ⟨30, _⟩ => ⟨S256, .i32⟩
  | .hbm, ⟨31, _⟩ => ⟨S_, .i32⟩
  | .hbm, ⟨32, _⟩ => ⟨S256, .i32⟩
  | .hbm, ⟨33, _⟩ => ⟨S256, .i1⟩
  | .hbm, ⟨34, _⟩ => ⟨S256x1, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i1⟩
  | .hbm, ⟨39, _⟩ => ⟨S256, .i1⟩
  | .hbm, ⟨40, _⟩ => ⟨S256, .f32⟩
  | .hbm, ⟨41, _⟩ => ⟨S256x1, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256x1, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i1⟩
  | .hbm, ⟨52, _⟩ => ⟨S256, .f32⟩
  | .hbm, ⟨53, _⟩ => ⟨S256x1, .i32⟩
  | .hbm, ⟨54, _⟩ => ⟨S256, .i32⟩
  | .hbm, ⟨55, _⟩ => ⟨S_, .i32⟩
  | .hbm, ⟨56, _⟩ => ⟨S256, .i32⟩
  | .hbm, ⟨57, _⟩ => ⟨S256, .i1⟩
  | .hbm, ⟨58, _⟩ => ⟨S256x1, .i32⟩
  | .hbm, ⟨59, _⟩ => ⟨S256, .i32⟩
  | .hbm, ⟨60, _⟩ => ⟨S_, .i32⟩
  | .hbm, ⟨61, _⟩ => ⟨S256, .i32⟩
  | .hbm, ⟨62, _⟩ => ⟨S256, .i1⟩
  | .hbm, ⟨63, _⟩ => ⟨S256, .i1⟩
  | .hbm, ⟨64, _⟩ => ⟨S256, .f32⟩
  | .hbm, ⟨65, _⟩ => ⟨S256x1, .i32⟩
  | .hbm, ⟨66, _⟩ => ⟨S256, .i32⟩
  | .hbm, ⟨67, _⟩ => ⟨S_, .i32⟩
  | .hbm, ⟨68, _⟩ => ⟨S256, .i32⟩
  | .hbm, ⟨69, _⟩ => ⟨S256, .i1⟩
  | .hbm, ⟨70, _⟩ => ⟨S256x1, .i32⟩
  | .hbm, ⟨71, _⟩ => ⟨S256, .i32⟩
  | .hbm, ⟨72, _⟩ => ⟨S_, .i32⟩
  | .hbm, ⟨73, _⟩ => ⟨S256, .i32⟩
  | .hbm, ⟨74, _⟩ => ⟨S256, .i1⟩
  | .hbm, ⟨75, _⟩ => ⟨S256, .i1⟩
  | .hbm, ⟨76, _⟩ => ⟨S256, .f32⟩
  | .hbm, ⟨77, _⟩ => ⟨S256x1, .i32⟩
  | .hbm, ⟨78, _⟩ => ⟨S256, .i32⟩
  | .hbm, ⟨79, _⟩ => ⟨S_, .i32⟩
  | .hbm, ⟨80, _⟩ => ⟨S256, .i32⟩
  | .hbm, ⟨81, _⟩ => ⟨S256, .i1⟩
  | .hbm, ⟨82, _⟩ => ⟨S256x1, .i32⟩
  | .hbm, ⟨83, _⟩ => ⟨S256, .i32⟩
  | .hbm, ⟨84, _⟩ => ⟨S_, .i32⟩
  | .hbm, ⟨85, _⟩ => ⟨S256, .i32⟩
  | .hbm, ⟨86, _⟩ => ⟨S256, .i1⟩
  | .hbm, ⟨87, _⟩ => ⟨S256, .i1⟩
  | .hbm, ⟨88, _⟩ => ⟨S256, .f32⟩
  | .hbm, ⟨89, _⟩ => ⟨S256x1, .i32⟩
  | .hbm, ⟨90, _⟩ => ⟨S256, .i32⟩
  | .hbm, ⟨91, _⟩ => ⟨S_, .i32⟩
  | .hbm, ⟨92, _⟩ => ⟨S256, .i32⟩
  | .hbm, ⟨93, _⟩ => ⟨S256, .i1⟩
  | .hbm, ⟨94, _⟩ => ⟨S256x1, .i32⟩
  | .hbm, ⟨95, _⟩ => ⟨S256, .i32⟩
  | .hbm, ⟨96, _⟩ => ⟨S_, .i32⟩
  | .hbm, ⟨97, _⟩ => ⟨S256, .i32⟩
  | .hbm, ⟨98, _⟩ => ⟨S256, .i1⟩
  | .hbm, ⟨99, _⟩ => ⟨S256, .i1⟩
  | .hbm, ⟨100, _⟩ => ⟨S256, .f32⟩
  | .hbm, ⟨101, _⟩ => ⟨S256x1, .i32⟩
  | .hbm, ⟨102, _⟩ => ⟨S256, .i32⟩
  | .hbm, ⟨103, _⟩ => ⟨S_, .i32⟩
  | .hbm, ⟨104, _⟩ => ⟨S256, .i32⟩
  | .hbm, ⟨105, _⟩ => ⟨S256, .i1⟩
  | .hbm, ⟨106, _⟩ => ⟨S256x1, .i32⟩
  | .hbm, ⟨107, _⟩ => ⟨S256, .i32⟩
  | .hbm, ⟨108, _⟩ => ⟨S_, .i32⟩
  | .hbm, ⟨109, _⟩ => ⟨S256, .i32⟩
  | .hbm, ⟨110, _⟩ => ⟨S256, .i1⟩
  | .hbm, ⟨111, _⟩ => ⟨S256, .i1⟩
  | .hbm, ⟨112, _⟩ => ⟨S256, .f32⟩
  | .hbm, ⟨113, _⟩ => ⟨S1x256, .f32⟩
  | .hbm, ⟨114, _⟩ => ⟨S1x256, .f32⟩
  | .hbm, ⟨115, _⟩ => ⟨S1x256, .f32⟩
  | .hbm, ⟨116, _⟩ => ⟨S1x256, .f32⟩
  | .hbm, ⟨117, _⟩ => ⟨S1x256, .f32⟩
  | .hbm, ⟨118, _⟩ => ⟨S1x256, .f32⟩
  | .hbm, ⟨119, _⟩ => ⟨S1x256, .f32⟩
  | .hbm, ⟨120, _⟩ => ⟨S1x256, .f32⟩
  | .hbm, ⟨121, _⟩ => ⟨S1x256, .f32⟩
  | .hbm, ⟨122, _⟩ => ⟨S9x256, .f32⟩
  | .hbm, ⟨123, _⟩ => ⟨S9x256x1x1, .f32⟩
  | .hbm, ⟨124, _⟩ => ⟨S32x256x56x56, .f32⟩
  | .local _ .vmem, ⟨0, _⟩ => ⟨S8x16x58x58, .f32⟩
  | .local _ .vmem, ⟨1, _⟩ => ⟨S8x16x58x58, .f32⟩
  | .local _ .vmem, ⟨2, _⟩ => ⟨S9x16x1x1, .f32⟩
  | .local _ .vmem, ⟨3, _⟩ => ⟨S9x16x1x1, .f32⟩
  | .local _ .vmem, ⟨4, _⟩ => ⟨S8x16x56x56, .f32⟩
  | .local _ .vmem, ⟨5, _⟩ => ⟨S8x16x56x56, .f32⟩
  | _, _ => ⟨S32x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_6 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_8 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_9 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_c_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_c_13 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_c_14 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_c_15 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_c_16 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_17 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S8x16x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S9x16x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x16x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S32x256x56x56_S32x256x58x58_000_000_110_110 : S32x256x56x56.Pads (![0, 0, 1, 1] : Fin 4 → Nat) ![0, 0, 1, 1] ![0, 0, 0, 0] S32x256x58x58
  h_S_ : 0 < S_.numel
  slices_S256x2_S256x1_0_0 : S256x2.Slices ![0, 0] S256x1
  shapeCasts_S256x1_S256 : S256x1.ShapeCasts S256
  bcast_S_S256 : S_.BroadcastsInDim S256 (![] : Fin 0 → Fin S256.rank)
  slices_S256x2_S256x1_0_1 : S256x2.Slices ![0, 1] S256x1
  bcast_S256_S1x256_1 : S256.BroadcastsInDim S1x256 (![1] : Fin 1 → Fin S1x256.rank)
  concatenates_S1x256_S1x256_S1x256_S1x256_S1x256_S1x256_S1x256_S1x256_S1x256_S9x256_d0 : Shape.Concatenates [S1x256, S1x256, S1x256, S1x256, S1x256, S1x256, S1x256, S1x256, S1x256] S9x256 0
  bcast_S9x256_S9x256x1x1_0_1 : S9x256.BroadcastsInDim S9x256x1x1 (![0, 1] : Fin 2 → Fin S9x256x1x1.rank)
  inb_S8x16x58x58_S8x16x56x56_0_0_0_0 : ∀ a, (![0, 0, 0, 0] : Fin 4 → Nat) a + S8x16x56x56.size a ≤ S8x16x58x58.size a
  h_S8x16x56x56 : 0 < S8x16x56x56.numel
  shapeCasts_S8x16x56x56_S8x16x56x56 : S8x16x56x56.ShapeCasts S8x16x56x56
  inb_S9x16x1x1_S1x16x1x1_0_0_0_0 : ∀ a, (![0, 0, 0, 0] : Fin 4 → Nat) a + S1x16x1x1.size a ≤ S9x16x1x1.size a
  h_S1x16x1x1 : 0 < S1x16x1x1.numel
  shapeCasts_S1x16x1x1_S16x1x1 : S1x16x1x1.ShapeCasts S16x1x1
  shapeCasts_S16x1x1_S1x16x1x1 : S16x1x1.ShapeCasts S1x16x1x1
  broadcasts_S1x16x1x1_S8x16x56x56 : S1x16x1x1.Broadcasts S8x16x56x56
  inb_S8x16x58x58_S8x16x56x56_0_0_0_1 : ∀ a, (![0, 0, 0, 1] : Fin 4 → Nat) a + S8x16x56x56.size a ≤ S8x16x58x58.size a
  inb_S9x16x1x1_S1x16x1x1_1_0_0_0 : ∀ a, (![1, 0, 0, 0] : Fin 4 → Nat) a + S1x16x1x1.size a ≤ S9x16x1x1.size a
  inb_S8x16x58x58_S8x16x56x56_0_0_0_2 : ∀ a, (![0, 0, 0, 2] : Fin 4 → Nat) a + S8x16x56x56.size a ≤ S8x16x58x58.size a
  inb_S9x16x1x1_S1x16x1x1_2_0_0_0 : ∀ a, (![2, 0, 0, 0] : Fin 4 → Nat) a + S1x16x1x1.size a ≤ S9x16x1x1.size a
  inb_S8x16x58x58_S8x16x56x56_0_0_1_0 : ∀ a, (![0, 0, 1, 0] : Fin 4 → Nat) a + S8x16x56x56.size a ≤ S8x16x58x58.size a
  inb_S9x16x1x1_S1x16x1x1_3_0_0_0 : ∀ a, (![3, 0, 0, 0] : Fin 4 → Nat) a + S1x16x1x1.size a ≤ S9x16x1x1.size a
  inb_S8x16x58x58_S8x16x56x56_0_0_1_1 : ∀ a, (![0, 0, 1, 1] : Fin 4 → Nat) a + S8x16x56x56.size a ≤ S8x16x58x58.size a
  inb_S9x16x1x1_S1x16x1x1_4_0_0_0 : ∀ a, (![4, 0, 0, 0] : Fin 4 → Nat) a + S1x16x1x1.size a ≤ S9x16x1x1.size a
  inb_S8x16x58x58_S8x16x56x56_0_0_1_2 : ∀ a, (![0, 0, 1, 2] : Fin 4 → Nat) a + S8x16x56x56.size a ≤ S8x16x58x58.size a
  inb_S9x16x1x1_S1x16x1x1_5_0_0_0 : ∀ a, (![5, 0, 0, 0] : Fin 4 → Nat) a + S1x16x1x1.size a ≤ S9x16x1x1.size a
  inb_S8x16x58x58_S8x16x56x56_0_0_2_0 : ∀ a, (![0, 0, 2, 0] : Fin 4 → Nat) a + S8x16x56x56.size a ≤ S8x16x58x58.size a
  inb_S9x16x1x1_S1x16x1x1_6_0_0_0 : ∀ a, (![6, 0, 0, 0] : Fin 4 → Nat) a + S1x16x1x1.size a ≤ S9x16x1x1.size a
  inb_S8x16x58x58_S8x16x56x56_0_0_2_1 : ∀ a, (![0, 0, 2, 1] : Fin 4 → Nat) a + S8x16x56x56.size a ≤ S8x16x58x58.size a
  inb_S9x16x1x1_S1x16x1x1_7_0_0_0 : ∀ a, (![7, 0, 0, 0] : Fin 4 → Nat) a + S1x16x1x1.size a ≤ S9x16x1x1.size a
  inb_S8x16x58x58_S8x16x56x56_0_0_2_2 : ∀ a, (![0, 0, 2, 2] : Fin 4 → Nat) a + S8x16x56x56.size a ≤ S8x16x58x58.size a
  inb_S9x16x1x1_S1x16x1x1_8_0_0_0 : ∀ a, (![8, 0, 0, 0] : Fin 4 → Nat) a + S1x16x1x1.size a ≤ S9x16x1x1.size a
  inb_S8x16x56x56_S8x16x56x56_0_0_0_0 : ∀ a, (![0, 0, 0, 0] : Fin 4 → Nat) a + S8x16x56x56.size a ≤ S8x16x56x56.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16x58x58.size a ≤ S32x256x58x58.size a
  hwx0_0 : ∀ i : grid0.Coords, EltTy.bits .f32 = 32 ∨ (Rect.block (s := S32x256x58x58) S8x16x58x58.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x16x1x1.size a ≤ S9x256x1x1.size a
  hwx0_1 : ∀ i : grid0.Coords, EltTy.bits .f32 = 32 ∨ (Rect.block (s := S9x256x1x1) S9x16x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x56x56.size a ≤ S32x256x56x56.size a
  hwx0_2 : ∀ i : grid0.Coords, EltTy.bits .f32 = 32 ∨ (Rect.block (s := S32x256x56x56) S8x16x56x56.size (cc0_transform_2 i) (hinb0_2 i)).WholeWords (EltTy.packing .f32)

variable [Facts₀]

abbrev win0_0 : Pipeline.Window sig grid0 :=
  Pipeline.Window.ofSpec (Memref.whole main_v0) S8x16x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v101) S9x16x1x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v102) S8x16x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x56x56 : Shape := ⟨4, ![32, 256, 56, 56]⟩
abbrev S256x2 : Shape := ⟨2, ![256, 2]⟩
abbrev S_ : Shape := ⟨0, ![]⟩
abbrev S32x256x58x58 : Shape := ⟨4, ![32, 256, 58, 58]⟩
abbrev S256x1 : Shape := ⟨2, ![256, 1]⟩
abbrev S256 : Shape := ⟨1, ![256]⟩
abbrev S56 : Shape := ⟨1, ![56]⟩
abbrev S1x56 : Shape := ⟨2, ![1, 56]⟩
abbrev S256x56 : Shape := ⟨2, ![256, 56]⟩
abbrev S256x1x1 : Shape := ⟨3, ![256, 1, 1]⟩
abbrev S256x56x1 : Shape := ⟨3, ![256, 56, 1]⟩
abbrev S256x1x56 : Shape := ⟨3, ![256, 1, 56]⟩
abbrev S256x56x56 : Shape := ⟨3, ![256, 56, 56]⟩
abbrev S256x56x56x1 : Shape := ⟨4, ![256, 56, 56, 1]⟩
abbrev S256x56x56x3 : Shape := ⟨4, ![256, 56, 56, 3]⟩

abbrev nBuf : Space → Nat
  | .hbm => 60
  | .vmem => 0
  | .smem => 0
  | _ => 0

abbrev bufTy : (tb : Table) → Fin (tcTables nBuf tb) → BufTy
  | .hbm, ⟨0, _⟩ => ⟨S32x256x56x56, .f32⟩
  | .hbm, ⟨1, _⟩ => ⟨S256x2, .i32⟩
  | .hbm, ⟨2, _⟩ => ⟨S_, .i32⟩
  | .hbm, ⟨3, _⟩ => ⟨S_, .f32⟩
  | .hbm, ⟨4, _⟩ => ⟨S32x256x58x58, .f32⟩
  | .hbm, ⟨5, _⟩ => ⟨S256x1, .i32⟩
  | .hbm, ⟨6, _⟩ => ⟨S256, .i32⟩
  | .hbm, ⟨7, _⟩ => ⟨S256x1, .i32⟩
  | .hbm, ⟨8, _⟩ => ⟨S256, .i32⟩
  | .hbm, ⟨9, _⟩ => ⟨S56, .i32⟩
  | .hbm, ⟨10, _⟩ => ⟨S1x56, .i32⟩
  | .hbm, ⟨11, _⟩ => ⟨S_, .i32⟩
  | .hbm, ⟨12, _⟩ => ⟨S1x56, .i32⟩
  | .hbm, ⟨13, _⟩ => ⟨S1x56, .i32⟩
  | .hbm, ⟨14, _⟩ => ⟨S256x1, .i32⟩
  | .hbm, ⟨15, _⟩ => ⟨S256x56, .i32⟩
  | .hbm, ⟨16, _⟩ => ⟨S256x56, .i32⟩
  | .hbm, ⟨17, _⟩ => ⟨S256x56, .i32⟩
  | .hbm, ⟨18, _⟩ => ⟨S56, .i32⟩
  | .hbm, ⟨19, _⟩ => ⟨S1x56, .i32⟩
  | .hbm, ⟨20, _⟩ => ⟨S_, .i32⟩
  | .hbm, ⟨21, _⟩ => ⟨S1x56, .i32⟩
  | .hbm, ⟨22, _⟩ => ⟨S1x56, .i32⟩
  | .hbm, ⟨23, _⟩ => ⟨S256x1, .i32⟩
  | .hbm, ⟨24, _⟩ => ⟨S256x56, .i32⟩
  | .hbm, ⟨25, _⟩ => ⟨S256x56, .i32⟩
  | .hbm, ⟨26, _⟩ => ⟨S256x56, .i32⟩
  | .hbm, ⟨27, _⟩ => ⟨S256, .i32⟩
  | .hbm, ⟨28, _⟩ => ⟨S256x1x1, .i32⟩
  | .hbm, ⟨29, _⟩ => ⟨S256x56x1, .i32⟩
  | .hbm, ⟨30, _⟩ => ⟨S256x1x56, .i32⟩
  | .hbm, ⟨31, _⟩ => ⟨S_, .i32⟩
  | .hbm, ⟨32, _⟩ => ⟨S256x1x1, .i32⟩
  | .hbm, ⟨33, _⟩ => ⟨S256x1x1, .i1⟩
  | .hbm, ⟨34, _⟩ => ⟨S_, .i32⟩
  | .hbm, ⟨35, _⟩ => ⟨S256x1x1, .i32⟩
  | .hbm, ⟨36, _⟩ => ⟨S256x1x1, .i32⟩
  | .hbm, ⟨37, _⟩ => ⟨S256x1x1, .i32⟩
  | .hbm, ⟨38, _⟩ => ⟨S_, .i32⟩
  | .hbm, ⟨39, _⟩ => ⟨S256x56x1, .i32⟩
  | .hbm, ⟨40, _⟩ => ⟨S256x56x1, .i1⟩
  | .hbm, ⟨41, _⟩ => ⟨S_, .i32⟩
  | .hbm, ⟨42, _⟩ => ⟨S256x56x1, .i32⟩
  | .hbm, ⟨43, _⟩ => ⟨S256x56x1, .i32⟩
  | .hbm, ⟨44, _⟩ => ⟨S256x56x1, .i32⟩
  | .hbm, ⟨45, _⟩ => ⟨S_, .i32⟩
  | .hbm, ⟨46, _⟩ => ⟨S256x1x56, .i32⟩
  | .hbm, ⟨47, _⟩ => ⟨S256x1x56, .i1⟩
  | .hbm, ⟨48, _⟩ => ⟨S_, .i32⟩
  | .hbm, ⟨49, _⟩ => ⟨S256x1x56, .i32⟩
  | .hbm, ⟨50, _⟩ => ⟨S256x1x56, .i32⟩
  | .hbm, ⟨51, _⟩ => ⟨S256x1x56, .i32⟩
  | .hbm, ⟨52, _⟩ => ⟨S256x56x56, .i32⟩
  | .hbm, ⟨53, _⟩ => ⟨S256x56x56, .i32⟩
  | .hbm, ⟨54, _⟩ => ⟨S256x56x56, .i32⟩
  | .hbm, ⟨55, _⟩ => ⟨S256x56x56x1, .i32⟩
  | .hbm, ⟨56, _⟩ => ⟨S256x56x56x1, .i32⟩
  | .hbm, ⟨57, _⟩ => ⟨S256x56x56x1, .i32⟩
  | .hbm, ⟨58, _⟩ => ⟨S256x56x56x3, .i32⟩
  | .hbm, ⟨59, _⟩ => ⟨S32x256x56x56, .f32⟩
  | _, _ => ⟨S32x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_2 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_4 : Ref sig .tc := ⟨.hbm, 38, rfl⟩
abbrev main_v30 : Ref sig .tc := ⟨.hbm, 39, rfl⟩
abbrev main_v31 : Ref sig .tc := ⟨.hbm, 40, rfl⟩
abbrev main_c_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_6 : Ref sig .tc := ⟨.hbm, 45, rfl⟩
abbrev main_v35 : Ref sig .tc := ⟨.hbm, 46, rfl⟩
abbrev main_v36 : Ref sig .tc := ⟨.hbm, 47, rfl⟩
abbrev main_c_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]

class Facts₀ : Prop where
  pads_S32x256x56x56_S32x256x58x58_000_000_110_110 : S32x256x56x56.Pads (![0, 0, 1, 1] : Fin 4 → Nat) ![0, 0, 1, 1] ![0, 0, 0, 0] S32x256x58x58
  h_S_ : 0 < S_.numel
  slices_S256x2_S256x1_0_0 : S256x2.Slices ![0, 0] S256x1
  shapeCasts_S256x1_S256 : S256x1.ShapeCasts S256
  slices_S256x2_S256x1_0_1 : S256x2.Slices ![0, 1] S256x1
  bcast_S56_S1x56_1 : S56.BroadcastsInDim S1x56 (![1] : Fin 1 → Fin S1x56.rank)
  bcast_S_S1x56 : S_.BroadcastsInDim S1x56 (![] : Fin 0 → Fin S1x56.rank)
  bcast_S256_S256x1_0 : S256.BroadcastsInDim S256x1 (![0] : Fin 1 → Fin S256x1.rank)
  bcast_S1x56_S256x56_0_1 : S1x56.BroadcastsInDim S256x56 (![0, 1] : Fin 2 → Fin S256x56.rank)
  bcast_S256x1_S256x56_0_1 : S256x1.BroadcastsInDim S256x56 (![0, 1] : Fin 2 → Fin S256x56.rank)
  bcast_S256_S256x1x1_0 : S256.BroadcastsInDim S256x1x1 (![0] : Fin 1 → Fin S256x1x1.rank)
  bcast_S256x56_S256x56x1_0_1 : S256x56.BroadcastsInDim S256x56x1 (![0, 1] : Fin 2 → Fin S256x56x1.rank)
  bcast_S256x56_S256x1x56_0_2 : S256x56.BroadcastsInDim S256x1x56 (![0, 2] : Fin 2 → Fin S256x1x56.rank)
  bcast_S_S256x1x1 : S_.BroadcastsInDim S256x1x1 (![] : Fin 0 → Fin S256x1x1.rank)
  bcast_S_S256x56x1 : S_.BroadcastsInDim S256x56x1 (![] : Fin 0 → Fin S256x56x1.rank)
  bcast_S_S256x1x56 : S_.BroadcastsInDim S256x1x56 (![] : Fin 0 → Fin S256x1x56.rank)
  bcast_S256x1x1_S256x56x56_0_1_2 : S256x1x1.BroadcastsInDim S256x56x56 (![0, 1, 2] : Fin 3 → Fin S256x56x56.rank)
  bcast_S256x56x1_S256x56x56_0_1_2 : S256x56x1.BroadcastsInDim S256x56x56 (![0, 1, 2] : Fin 3 → Fin S256x56x56.rank)
  bcast_S256x1x56_S256x56x56_0_1_2 : S256x1x56.BroadcastsInDim S256x56x56 (![0, 1, 2] : Fin 3 → Fin S256x56x56.rank)
  bcast_S256x56x56_S256x56x56x1_0_1_2 : S256x56x56.BroadcastsInDim S256x56x56x1 (![0, 1, 2] : Fin 3 → Fin S256x56x56x1.rank)
  concatenates_S256x56x56x1_S256x56x56x1_S256x56x56x1_S256x56x56x3_d3 : Shape.Concatenates [S256x56x56x1, S256x56x56x1, S256x56x56x1] S256x56x56x3 3
  gather_S32x256x58x58_S256x56x56x3_S32x256x56x56_0_123_n_n_123_3_32111_wf : GatherDims.WF S32x256x58x58 S256x56x56x3 S32x256x56x56 [0] [1, 2, 3] [] [1, 2, 3] [] 3 ![32, 1, 1, 1]

variable [Facts₀]

def gather_S32x256x58x58_S256x56x56x3_S32x256x56x56_0_123_n_n_123_3_32111 : GatherDims S32x256x58x58 S256x56x56x3 S32x256x56x56 where
  offsetDims := [0]
  collapsedSliceDims := [1, 2, 3]
  operandBatchingDims := []
  startIndicesBatchingDims := []
  startIndexMap := [1, 2, 3]
  indexVectorDim := 3
  sliceSizes := ![32, 1, 1, 1]
  wf := gather_S32x256x58x58_S256x56x56x3_S32x256x56x56_0_123_n_n_123_3_32111_wf

class Facts : Prop extends Facts₀ where

variable [Facts]
-- ==== Proof.ShiftEntry.lean ====
/-
  The idealized kernel's program up to its one region: what each buffer holds when the region is entered.

  Before the region the program runs three stretches of host operations: a zero constant; the padding of the input by
  that zero; and the nine masks, each the conjunction of two word comparisons of the shift words' columns with one of
  -1, 0, 1, converted to a float, joined along a new leading axis and given two unit axes. None of them writes an
  argument, so the region finds both arguments as launched.
-/
import proofs.«427291_j15298673508386_1_alg».proof.Proof.Gen.KernelIdeal.Launch
import Idealize.ShloMosaic.Lib.Pipeline.FrameBody

set_option maxRecDepth 16384

noncomputable section

namespace Cert.KernelIdeal.Frm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch contents after the three host stretches. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program is the three stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes the input. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

set_option maxHeartbeats 4000000 in
/-- No host operation writes the shift words. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

end Cert.KernelIdeal.Frm

end
-- ==== Proof.ShiftFrame.lean ====
/-
  The idealized kernel runs to the end, faults nowhere, and leaves in its result array, block by block, the sum of the
  nine masked slices.

  At a grid point `(b, c)` the body is handed the padded block `x0 : [8, 16, 58, 58]` and the mask block
  `x1 : [9, 16, 1, 1]`. It loads the nine slices `x0[:, :, a : a + 56, b' : b' + 56]`, `(a, b')` ranging over {0, 1, 2}²,
  and the nine mask rows `x1[i]`, multiplies slice by mask row broadcast over batch and space, adds the products to a
  zero accumulator in order, and stores the sum over the whole result block (`resultBlock`). It reads the result
  buffer once before that store and does not use what it read. The pipeline fetches both inputs at every point and
  writes the result block back at every point; the body keeps nothing between points.
-/
import proofs.«427291_j15298673508386_1_alg».proof.Proof.ShiftEntry
import proofs.«427291_j15298673508386_1_alg».proof.Proof.Gen.KernelIdeal.Skeleton
import proofs.«427291_j15298673508386_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded input's staging buffer holds its block at every point, for any proof data over the region-entry
    arrays whose body leaves the block in place: the window is fetched at every point, uncut and never idle. -/
theorem holds_padded {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the masks' staging buffer. -/
theorem holds_masks {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- A run whose final state has every array of the pipeline at what the proof data say, and every other buffer as the
    region found it, leaves both arguments as launched: neither is an array of the pipeline, and the region found
    them as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

abbrev rx00 : Rect S8x16x58x58 := Rect.unit (s := S8x16x58x58) ![0, 0, 0, 0] S8x16x56x56.size inb_S8x16x58x58_S8x16x56x56_0_0_0_0
abbrev rx01 : Rect S8x16x58x58 := Rect.unit (s := S8x16x58x58) ![0, 0, 0, 1] S8x16x56x56.size inb_S8x16x58x58_S8x16x56x56_0_0_0_1
abbrev rx02 : Rect S8x16x58x58 := Rect.unit (s := S8x16x58x58) ![0, 0, 0, 2] S8x16x56x56.size inb_S8x16x58x58_S8x16x56x56_0_0_0_2
abbrev rx10 : Rect S8x16x58x58 := Rect.unit (s := S8x16x58x58) ![0, 0, 1, 0] S8x16x56x56.size inb_S8x16x58x58_S8x16x56x56_0_0_1_0
abbrev rx11 : Rect S8x16x58x58 := Rect.unit (s := S8x16x58x58) ![0, 0, 1, 1] S8x16x56x56.size inb_S8x16x58x58_S8x16x56x56_0_0_1_1
abbrev rx12 : Rect S8x16x58x58 := Rect.unit (s := S8x16x58x58) ![0, 0, 1, 2] S8x16x56x56.size inb_S8x16x58x58_S8x16x56x56_0_0_1_2
abbrev rx20 : Rect S8x16x58x58 := Rect.unit (s := S8x16x58x58) ![0, 0, 2, 0] S8x16x56x56.size inb_S8x16x58x58_S8x16x56x56_0_0_2_0
abbrev rx21 : Rect S8x16x58x58 := Rect.unit (s := S8x16x58x58) ![0, 0, 2, 1] S8x16x56x56.size inb_S8x16x58x58_S8x16x56x56_0_0_2_1
abbrev rx22 : Rect S8x16x58x58 := Rect.unit (s := S8x16x58x58) ![0, 0, 2, 2] S8x16x56x56.size inb_S8x16x58x58_S8x16x56x56_0_0_2_2
abbrev rm0 : Rect S9x16x1x1 := Rect.unit (s := S9x16x1x1) ![0, 0, 0, 0] S1x16x1x1.size inb_S9x16x1x1_S1x16x1x1_0_0_0_0
abbrev rm1 : Rect S9x16x1x1 := Rect.unit (s := S9x16x1x1) ![1, 0, 0, 0] S1x16x1x1.size inb_S9x16x1x1_S1x16x1x1_1_0_0_0
abbrev rm2 : Rect S9x16x1x1 := Rect.unit (s := S9x16x1x1) ![2, 0, 0, 0] S1x16x1x1.size inb_S9x16x1x1_S1x16x1x1_2_0_0_0
abbrev rm3 : Rect S9x16x1x1 := Rect.unit (s := S9x16x1x1) ![3, 0, 0, 0] S1x16x1x1.size inb_S9x16x1x1_S1x16x1x1_3_0_0_0
abbrev rm4 : Rect S9x16x1x1 := Rect.unit (s := S9x16x1x1) ![4, 0, 0, 0] S1x16x1x1.size inb_S9x16x1x1_S1x16x1x1_4_0_0_0
abbrev rm5 : Rect S9x16x1x1 := Rect.unit (s := S9x16x1x1) ![5, 0, 0, 0] S1x16x1x1.size inb_S9x16x1x1_S1x16x1x1_5_0_0_0
abbrev rm6 : Rect S9x16x1x1 := Rect.unit (s := S9x16x1x1) ![6, 0, 0, 0] S1x16x1x1.size inb_S9x16x1x1_S1x16x1x1_6_0_0_0
abbrev rm7 : Rect S9x16x1x1 := Rect.unit (s := S9x16x1x1) ![7, 0, 0, 0] S1x16x1x1.size inb_S9x16x1x1_S1x16x1x1_7_0_0_0
abbrev rm8 : Rect S9x16x1x1 := Rect.unit (s := S9x16x1x1) ![8, 0, 0, 0] S1x16x1x1.size inb_S9x16x1x1_S1x16x1x1_8_0_0_0
abbrev rOut : Rect S8x16x56x56 := Rect.unit (s := S8x16x56x56) ![0, 0, 0, 0] S8x16x56x56.size inb_S8x16x56x56_S8x16x56x56_0_0_0_0

/-! ## What the body leaves in the result's buffer -/

/-- The nine masked slices summed, as the body computes them from the two input blocks. -/
def ninefoldSum (x0 : Vec F S8x16x58x58 .f32) (x1 : Vec F S9x16x1x1 .f32) : FVec F S8x16x56x56 .f32 :=
  k0_pay1
    (k0_pay4
      (k0_pay2 (View.ld x0 rx00) (View.ld x1 rm0) (View.ld x0 rx01) (View.ld x1 rm1) (View.ld x0 rx02) (View.ld x1 rm2))
      (k0_pay3 (View.ld x0 rx10))
      (View.ld x1 rm3) (View.ld x0 rx11) (View.ld x1 rm4) (View.ld x0 rx12) (View.ld x1 rm5) (View.ld x0 rx20) (View.ld x1 rm6))
    (View.ld x0 rx21) (View.ld x1 rm7) (View.ld x0 rx22) (View.ld x1 rm8)

/-- The result's staging buffer after the body: its one store, over the whole block. -/
def resultBlock (x0 : Vec F S8x16x58x58 .f32) (x1 : Vec F S9x16x1x1 .f32) : Vec F S8x16x56x56 .f32 :=
  View.canon [⟨rOut, ninefoldSum x0 x1⟩]

/-- The one store covers the buffer. -/
theorem result_cover (p0 : Vec F S8x16x56x56 .f32) (y : S8x16x56x56.Idx) :
    ∃ pc ∈ ([⟨rOut, p0⟩] : List (View.Piece (Elt F) S8x16x56x56 .f32)), y ∈ pc.1.set :=
  View.cover_of_tiled [⟨rOut, p0⟩] S8x16x56x56.size (by rfl) y

/-! ## The body's triple -/

set_option maxHeartbeats 4000000 in
/-- On whole staging memrefs, the inputs' at contents `x0`, `x1` and the result's at anything, the body runs to the
    continuation with the inputs' as they were and the result's at `resultBlock x0 x1`. -/
theorem sound_kernel (c : Dev nD) (E : Set ℕ) (i : grid0.Coords) (arg2 : Memref sig .tc .vmem S8x16x58x58 .f32) (harg2 : arg2.IsWhole) (arg3 : Memref sig .tc .vmem S9x16x1x1 .f32) (harg3 : arg3.IsWhole) (arg4 : Memref sig .tc .vmem S8x16x56x56 .f32) (harg4 : arg4.IsWhole)
    (x0 : Vec F S8x16x58x58 .f32) (x1 : Vec F S9x16x1x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (resultBlock x0 x1)) -∗ K ⟨⟩))
      ⊢ wp frame (wpE (defs₀ (F := F)) Variants.none c none) E (cc0__shift_kernel i arg2 harg2 arg3 harg3 arg4 harg4) K := by
  simp only [cc0__shift_kernel_eq_skeleton]; unfold cc0__shift_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (result_cover _)

/-! ## The pipeline's proof data -/

/-- The proof data on core `c`: the arrays as the region finds them; after the body at point `t` each input's buffer at
    its block and the result's at `resultBlock` of the two input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => resultBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_padded (c : Dev nD) (t : Fin cfg0.N) : (dats m 0 c).after 0 t = iblk m c 0 t := by dsimp only [dats]
theorem after_masks (c : Dev nD) (t : Fin cfg0.N) : (dats m 0 c).after 1 t = iblk m c 1 t := by dsimp only [dats]
theorem after_result (c : Dev nD) (t : Fin cfg0.N) : (dats m 0 c).after 2 t = resultBlock (iblk m c 0 t) (iblk m c 1 t) := by dsimp only [dats]

theorem before_padded (c : Dev nD) (t : Fin cfg0.N) (d) : (dats m 0 c).before 0 t d = iblk m c 0 t :=
  holds_padded m (dats m 0 c) (A_eq m c 0) (after_padded m c) t d
theorem before_masks (c : Dev nD) (t : Fin cfg0.N) (d) : (dats m 0 c).before 1 t d = iblk m c 1 t :=
  holds_masks m (dats m 0 c) (A_eq m c 1) (after_masks m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the triple applies; the invariant and the core's
    duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_padded, before_masks]
  rw [show (dats m 0 c).Φ t.succ = (dats m 0 c).Φ t.castSucc from rfl,
    show (dats m 0 c).owesAt () t.succ = (dats m 0 c).owesAt () t.castSucc from rfl,
    after_padded, after_masks, after_result]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The same run with the result array NAMED: it ends at what the proof data compute from the blocks written back, and
    both arguments end as launched. -/
theorem run_named : θ_run defs (onTc (τ := τ) (main (F := F))) ⟨m, fun _ => 0, ρ⟩ (fun r => ∀ c : Dev nD,
      r.2.mem ((c.tc : Thread nD τ).loc main_v102) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.Frm

end
-- ==== Proof.ShiftEntryBits.lean ====
/-
  The kernel's program, read at the word level, up to its one region: what each buffer holds when the region is entered.

  Before the region the program runs three stretches of host operations: a zero constant; the padding of the input by
  that zero; and the nine masks, each the conjunction of two word comparisons of the shift words' columns with one of
  -1, 0, 1, converted to a float, joined along a new leading axis and given two unit axes. None of them writes an
  argument, so the region finds both arguments as launched.
-/
import proofs.«427291_j15298673508386_1_alg».proof.Proof.Gen.Kernel.Launch
import Idealize.ShloMosaic.Lib.Pipeline.FrameBody

set_option maxRecDepth 16384

noncomputable section

namespace Cert.Kernel.Frm

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s buffers when the region is entered: the launch contents after the three host stretches. -/
abbrev V (c : Dev nD) (b : Ref sig .tc) : Buf (Elt F) ((c : Thread nD τ).loc b) :=
  StableHlo.after (List.flatten [hostOps0, hostOps0_1, hostOps0_2]) (fun b => m (c, b)) b

/-- No host operation allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- The program is the three stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes the input. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

set_option maxHeartbeats 4000000 in
/-- No host operation writes the shift words. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.reshape_writes, StableHlo.nary_writes, Finset.mem_singleton]
    repeat' apply And.intro
    all_goals exact StableHlo.devRef_ne_of_ne (by decide)))

end Cert.Kernel.Frm

end
-- ==== Proof.ShiftFrameBits.lean ====
/-
  The kernel, read at the word level, runs to the end, faults nowhere, and leaves in its result array, block by block, the sum of the
  nine masked slices.

  At a grid point `(b, c)` the body is handed the padded block `x0 : [8, 16, 58, 58]` and the mask block
  `x1 : [9, 16, 1, 1]`. It loads the nine slices `x0[:, :, a : a + 56, b' : b' + 56]`, `(a, b')` ranging over {0, 1, 2}²,
  and the nine mask rows `x1[i]`, multiplies slice by mask row broadcast over batch and space, adds the products to a
  zero accumulator in order, and stores the sum over the whole result block (`resultBlock`). It reads the result
  buffer once before that store and does not use what it read. The pipeline fetches both inputs at every point and
  writes the result block back at every point; the body keeps nothing between points.
-/
import proofs.«427291_j15298673508386_1_alg».proof.Proof.ShiftEntryBits
import proofs.«427291_j15298673508386_1_alg».proof.Proof.Gen.Kernel.Skeleton
import proofs.«427291_j15298673508386_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The padded input's staging buffer holds its block at every point, for any proof data over the region-entry
    arrays whose body leaves the block in place: the window is fetched at every point, uncut and never idle. -/
theorem holds_padded {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the masks' staging buffer. -/
theorem holds_masks {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- A run whose final state has every array of the pipeline at what the proof data say, and every other buffer as the
    region found it, leaves both arguments as launched: neither is an array of the pipeline, and the region found
    them as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-! ## The body's accesses -/

abbrev rx00 : Rect S8x16x58x58 := Rect.unit (s := S8x16x58x58) ![0, 0, 0, 0] S8x16x56x56.size inb_S8x16x58x58_S8x16x56x56_0_0_0_0
abbrev rx01 : Rect S8x16x58x58 := Rect.unit (s := S8x16x58x58) ![0, 0, 0, 1] S8x16x56x56.size inb_S8x16x58x58_S8x16x56x56_0_0_0_1
abbrev rx02 : Rect S8x16x58x58 := Rect.unit (s := S8x16x58x58) ![0, 0, 0, 2] S8x16x56x56.size inb_S8x16x58x58_S8x16x56x56_0_0_0_2
abbrev rx10 : Rect S8x16x58x58 := Rect.unit (s := S8x16x58x58) ![0, 0, 1, 0] S8x16x56x56.size inb_S8x16x58x58_S8x16x56x56_0_0_1_0
abbrev rx11 : Rect S8x16x58x58 := Rect.unit (s := S8x16x58x58) ![0, 0, 1, 1] S8x16x56x56.size inb_S8x16x58x58_S8x16x56x56_0_0_1_1
abbrev rx12 : Rect S8x16x58x58 := Rect.unit (s := S8x16x58x58) ![0, 0, 1, 2] S8x16x56x56.size inb_S8x16x58x58_S8x16x56x56_0_0_1_2
abbrev rx20 : Rect S8x16x58x58 := Rect.unit (s := S8x16x58x58) ![0, 0, 2, 0] S8x16x56x56.size inb_S8x16x58x58_S8x16x56x56_0_0_2_0
abbrev rx21 : Rect S8x16x58x58 := Rect.unit (s := S8x16x58x58) ![0, 0, 2, 1] S8x16x56x56.size inb_S8x16x58x58_S8x16x56x56_0_0_2_1
abbrev rx22 : Rect S8x16x58x58 := Rect.unit (s := S8x16x58x58) ![0, 0, 2, 2] S8x16x56x56.size inb_S8x16x58x58_S8x16x56x56_0_0_2_2
abbrev rm0 : Rect S9x16x1x1 := Rect.unit (s := S9x16x1x1) ![0, 0, 0, 0] S1x16x1x1.size inb_S9x16x1x1_S1x16x1x1_0_0_0_0
abbrev rm1 : Rect S9x16x1x1 := Rect.unit (s := S9x16x1x1) ![1, 0, 0, 0] S1x16x1x1.size inb_S9x16x1x1_S1x16x1x1_1_0_0_0
abbrev rm2 : Rect S9x16x1x1 := Rect.unit (s := S9x16x1x1) ![2, 0, 0, 0] S1x16x1x1.size inb_S9x16x1x1_S1x16x1x1_2_0_0_0
abbrev rm3 : Rect S9x16x1x1 := Rect.unit (s := S9x16x1x1) ![3, 0, 0, 0] S1x16x1x1.size inb_S9x16x1x1_S1x16x1x1_3_0_0_0
abbrev rm4 : Rect S9x16x1x1 := Rect.unit (s := S9x16x1x1) ![4, 0, 0, 0] S1x16x1x1.size inb_S9x16x1x1_S1x16x1x1_4_0_0_0
abbrev rm5 : Rect S9x16x1x1 := Rect.unit (s := S9x16x1x1) ![5, 0, 0, 0] S1x16x1x1.size inb_S9x16x1x1_S1x16x1x1_5_0_0_0
abbrev rm6 : Rect S9x16x1x1 := Rect.unit (s := S9x16x1x1) ![6, 0, 0, 0] S1x16x1x1.size inb_S9x16x1x1_S1x16x1x1_6_0_0_0
abbrev rm7 : Rect S9x16x1x1 := Rect.unit (s := S9x16x1x1) ![7, 0, 0, 0] S1x16x1x1.size inb_S9x16x1x1_S1x16x1x1_7_0_0_0
abbrev rm8 : Rect S9x16x1x1 := Rect.unit (s := S9x16x1x1) ![8, 0, 0, 0] S1x16x1x1.size inb_S9x16x1x1_S1x16x1x1_8_0_0_0
abbrev rOut : Rect S8x16x56x56 := Rect.unit (s := S8x16x56x56) ![0, 0, 0, 0] S8x16x56x56.size inb_S8x16x56x56_S8x16x56x56_0_0_0_0

/-! ## What the body leaves in the result's buffer -/

/-- The nine masked slices summed, as the body computes them from the two input blocks. -/
def ninefoldSum (x0 : Vec F S8x16x58x58 .f32) (x1 : Vec F S9x16x1x1 .f32) : FVec F S8x16x56x56 .f32 :=
  k0_pay1
    (k0_pay4
      (k0_pay2 (View.ld x0 rx00) (View.ld x1 rm0) (View.ld x0 rx01) (View.ld x1 rm1) (View.ld x0 rx02) (View.ld x1 rm2))
      (k0_pay3 (View.ld x0 rx10))
      (View.ld x1 rm3) (View.ld x0 rx11) (View.ld x1 rm4) (View.ld x0 rx12) (View.ld x1 rm5) (View.ld x0 rx20) (View.ld x1 rm6))
    (View.ld x0 rx21) (View.ld x1 rm7) (View.ld x0 rx22) (View.ld x1 rm8)

/-- The result's staging buffer after the body: its one store, over the whole block. -/
def resultBlock (x0 : Vec F S8x16x58x58 .f32) (x1 : Vec F S9x16x1x1 .f32) : Vec F S8x16x56x56 .f32 :=
  View.canon [⟨rOut, ninefoldSum x0 x1⟩]

/-- The one store covers the buffer. -/
theorem result_cover (p0 : Vec F S8x16x56x56 .f32) (y : S8x16x56x56.Idx) :
    ∃ pc ∈ ([⟨rOut, p0⟩] : List (View.Piece (Elt F) S8x16x56x56 .f32)), y ∈ pc.1.set :=
  View.cover_of_tiled [⟨rOut, p0⟩] S8x16x56x56.size (by rfl) y

/-! ## The body's triple -/

set_option maxHeartbeats 4000000 in
/-- On whole staging memrefs, the inputs' at contents `x0`, `x1` and the result's at anything, the body runs to the
    continuation with the inputs' as they were and the result's at `resultBlock x0 x1`. -/
theorem sound_kernel (c : Dev nD) (E : Set ℕ) (i : grid0.Coords) (arg2 : Memref sig .tc .vmem S8x16x58x58 .f32) (harg2 : arg2.IsWhole) (arg3 : Memref sig .tc .vmem S9x16x1x1 .f32) (harg3 : arg3.IsWhole) (arg4 : Memref sig .tc .vmem S8x16x56x56 .f32) (harg4 : arg4.IsWhole)
    (x0 : Vec F S8x16x58x58 .f32) (x1 : Vec F S9x16x1x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (resultBlock x0 x1)) -∗ K ⟨⟩))
      ⊢ wp frame (wpE (defs₀ (F := F)) Variants.none c none) E (cc0__shift_kernel i arg2 harg2 arg3 harg3 arg4 harg4) K := by
  simp only [cc0__shift_kernel_eq_skeleton]; unfold cc0__shift_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (result_cover _)

/-! ## The pipeline's proof data -/

/-- The proof data on core `c`: the arrays as the region finds them; after the body at point `t` each input's buffer at
    its block and the result's at `resultBlock` of the two input blocks; the invariant the scoped rest and the generator
    register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => resultBlock (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_padded (c : Dev nD) (t : Fin cfg0.N) : (dats m 0 c).after 0 t = iblk m c 0 t := by dsimp only [dats]
theorem after_masks (c : Dev nD) (t : Fin cfg0.N) : (dats m 0 c).after 1 t = iblk m c 1 t := by dsimp only [dats]
theorem after_result (c : Dev nD) (t : Fin cfg0.N) : (dats m 0 c).after 2 t = resultBlock (iblk m c 0 t) (iblk m c 1 t) := by dsimp only [dats]

theorem before_padded (c : Dev nD) (t : Fin cfg0.N) (d) : (dats m 0 c).before 0 t d = iblk m c 0 t :=
  holds_padded m (dats m 0 c) (A_eq m c 0) (after_padded m c) t d
theorem before_masks (c : Dev nD) (t : Fin cfg0.N) (d) : (dats m 0 c).before 1 t d = iblk m c 1 t :=
  holds_masks m (dats m 0 c) (A_eq m c 1) (after_masks m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the triple applies; the invariant and the core's
    duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_padded, before_masks]
  rw [show (dats m 0 c).Φ t.succ = (dats m 0 c).Φ t.castSucc from rfl,
    show (dats m 0 c).owesAt () t.succ = (dats m 0 c).owesAt () t.castSucc from rfl,
    after_padded, after_masks, after_result]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and every final state has
    every array of the pipeline at what the proof data compute and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and both arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The same run with the result array NAMED: it ends at what the proof data compute from the blocks written back, and
    both arguments end as launched. -/
theorem run_named : θ_run defs (onTc (τ := τ) (main (F := F))) ⟨m, fun _ => 0, ρ⟩ (fun r => ∀ c : Dev nD,
      r.2.mem ((c.tc : Thread nD τ).loc main_v102) = (dats m 0 c).arrAt 2 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1 2,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel.Frm

end
-- ==== Proof.ShiftSpec.lean ====
/-
  The per-channel spatial shift, as one function of the padded array.

  The padded array `xp` has a border of one zero on each side of the two spatial axes. Channel `c` carries two shift
  words `sh[c, 0]` (rows) and `sh[c, 1]` (columns), each one of -1, 0, 1. The result at `[n, c, y, x]` is the padded
  array at `[n, c, y + 1 + sh[c, 0], x + 1 + sh[c, 1]]`: `shifted`.

  The kernel computes the same entry as a sum of nine products, one per pair of offsets `(a, b)` in {0, 1, 2}², of the
  padded array at `[n, c, y + a, x + b]` with a 0/1 mask that is 1 exactly for the pair `(1 + sh[c, 0], 1 + sh[c, 1])`:
  `ninefold`. A sum in which every term but one is a product with zero is that one term; on the extended reals this
  needs no finiteness, since a product with zero is zero and zero is neutral for the sum.
-/
import Idealize.ShloMosaic.PureOps.Ideal
import Idealize.ShloMosaic.Lib.ValueIdx

noncomputable section

namespace Cert.Shift

open Idealize.ShloMosaic Idealize.ShloMosaic.ValueIdx

/-- The input and the result: batch 32, 256 channels, 56 × 56. -/
abbrev SX : Shape := ⟨4, ![32, 256, 56, 56]⟩
/-- The padded input: 58 × 58. -/
abbrev SP : Shape := ⟨4, ![32, 256, 58, 58]⟩
/-- The shift words: one pair per channel. -/
abbrev SS : Shape := ⟨2, ![256, 2]⟩
/-- The masks: nine per channel. -/
abbrev SM : Shape := ⟨4, ![9, 256, 1, 1]⟩

/-- Every shift word is -1, 0 or 1 (as 32-bit words). -/
def InRange (sh : IVec SS 32) : Prop := ∀ i, sh i = 4294967295#32 ∨ sh i = 0#32 ∨ sh i = 1#32

/-- `1 + d` for a shift word `d` among -1, 0, 1 (and 2 for any other word). -/
def off (w : BitVec 32) : Nat := if w = 4294967295#32 then 0 else if w = 0#32 then 1 else 2

theorem off_le (w : BitVec 32) : off w ≤ 2 := by unfold off; split_ifs <;> omega

/-- A row or column of the result moved by an offset at most 2 stays inside the padded extent. -/
def moved (y : Fin 56) (a : Nat) (ha : a ≤ 2) : Fin 58 := ⟨y.val + a, by have := y.isLt; omega⟩

/-- Where the result's entry `j` is read in the padded array. -/
def src (sh : IVec SS 32) (j : SX.Idx) : SP.Idx :=
  ix4 (n0 := 32) (n1 := 256) (n2 := 58) (n3 := 58) (j 0) (j 1)
    (moved (j 2) (off (sh (ix2 (n0 := 256) (n1 := 2) (j 1) 0))) (off_le _))
    (moved (j 3) (off (sh (ix2 (n0 := 256) (n1 := 2) (j 1) 1))) (off_le _))

/-- The shifted array. -/
def shifted {α : Type} (xp : SP.Idx → α) (sh : IVec SS 32) : SX.Idx → α := fun j => xp (src sh j)

/-- The row offset `a` and the column offset `b` of the `i`-th of the nine pairs, in the order (0,0), (0,1), …, (2,2). -/
def rowOff (i : Fin 9) : Nat := i.val / 3
def colOff (i : Fin 9) : Nat := i.val % 3
theorem rowOff_le (i : Fin 9) : rowOff i ≤ 2 := by unfold rowOff; omega
theorem colOff_le (i : Fin 9) : colOff i ≤ 2 := by unfold colOff; omega

/-- The shift word `a - 1` of an offset `a` among 0, 1, 2. -/
def wordOf (a : Nat) : BitVec 32 := if a = 0 then 4294967295#32 else if a = 1 then 0#32 else 1#32

/-- The `i`-th product: the padded array moved by the `i`-th pair of offsets, times channel `c`'s `i`-th mask. -/
def tap (xp : SP.Idx → EReal) (mk : SM.Idx → EReal) (j : SX.Idx) (i : Fin 9) : EReal :=
  xp (ix4 (n0 := 32) (n1 := 256) (n2 := 58) (n3 := 58) (j 0) (j 1) (moved (j 2) (rowOff i) (rowOff_le i)) (moved (j 3) (colOff i) (colOff_le i)))
    * mk (ix4 (n0 := 9) (n1 := 256) (n2 := 1) (n3 := 1) i (j 1) 0 0)

/-- The nine products summed from zero, in the kernel's order. -/
def ninefold (xp : SP.Idx → EReal) (mk : SM.Idx → EReal) : SX.Idx → EReal := fun j =>
  0 + tap xp mk j 0 + tap xp mk j 1 + tap xp mk j 2 + tap xp mk j 3 + tap xp mk j 4 + tap xp mk j 5
    + tap xp mk j 6 + tap xp mk j 7 + tap xp mk j 8

/-- The masks are the one-hot code of the shift words: mask `i` of channel `c` is 1 when the two words are the
    `i`-th pair's, else 0. -/
def IsCode (mk : SM.Idx → EReal) (sh : IVec SS 32) : Prop :=
  ∀ (i : Fin 9) (c : Fin 256), mk (ix4 (n0 := 9) (n1 := 256) (n2 := 1) (n3 := 1) i c 0 0)
    = if sh (ix2 (n0 := 256) (n1 := 2) c 0) = wordOf (rowOff i) ∧ sh (ix2 (n0 := 256) (n1 := 2) c 1) = wordOf (colOff i) then 1 else 0

end Cert.Shift

end
-- ==== Proof.ShiftAlgebra.lean ====
/-
  The nine-term masked sum is the shifted array.

  Fix an entry `j` of the result, of channel `c = j 1`. Each of the two shift words of `c` is -1, 0 or 1, nine cases
  in all. In each case the one-hot code makes exactly one of the nine masks 1 and the other eight 0. A product with
  zero is zero and zero is neutral for the sum (on the extended reals this needs no finiteness), so the sum is the one
  surviving product, the padded array read at the row moved by `1 + sh[c, 0]` and the column moved by `1 + sh[c, 1]`,
  times one: the shifted array's entry.
-/
import proofs.«427291_j15298673508386_1_alg».proof.Proof.ShiftSpec

noncomputable section

namespace Cert.Shift

open Idealize.ShloMosaic Idealize.ShloMosaic.ValueIdx

/-- The row and column offsets of the nine pairs, computed. -/
theorem rowOff_0 : rowOff 0 = 0 := rfl
theorem rowOff_1 : rowOff 1 = 0 := rfl
theorem rowOff_2 : rowOff 2 = 0 := rfl
theorem rowOff_3 : rowOff 3 = 1 := rfl
theorem rowOff_4 : rowOff 4 = 1 := rfl
theorem rowOff_5 : rowOff 5 = 1 := rfl
theorem rowOff_6 : rowOff 6 = 2 := rfl
theorem rowOff_7 : rowOff 7 = 2 := rfl
theorem rowOff_8 : rowOff 8 = 2 := rfl
theorem colOff_0 : colOff 0 = 0 := rfl
theorem colOff_1 : colOff 1 = 1 := rfl
theorem colOff_2 : colOff 2 = 2 := rfl
theorem colOff_3 : colOff 3 = 0 := rfl
theorem colOff_4 : colOff 4 = 1 := rfl
theorem colOff_5 : colOff 5 = 2 := rfl
theorem colOff_6 : colOff 6 = 0 := rfl
theorem colOff_7 : colOff 7 = 1 := rfl
theorem colOff_8 : colOff 8 = 2 := rfl

/-- The shift words of the three offsets. -/
theorem wordOf_0 : wordOf 0 = 4294967295#32 := rfl
theorem wordOf_1 : wordOf 1 = 0#32 := rfl
theorem wordOf_2 : wordOf 2 = 1#32 := rfl

/-- The offsets of the three shift words. -/
theorem off_neg : off 4294967295#32 = 0 := rfl
theorem off_zero : off 0#32 = 1 := rfl
theorem off_one : off 1#32 = 2 := rfl

theorem ninefold_eq_shifted (xp : SP.Idx → EReal) (mk : SM.Idx → EReal) (sh : IVec SS 32) (hsh : InRange sh)
    (hmk : IsCode mk sh) : ninefold xp mk = shifted xp sh := by
  funext j
  have h0 := hsh (ix2 (n0 := 256) (n1 := 2) (j 1) 0)
  have h1 := hsh (ix2 (n0 := 256) (n1 := 2) (j 1) 1)
  have m0 := hmk 0 (j 1)
  have m1 := hmk 1 (j 1)
  have m2 := hmk 2 (j 1)
  have m3 := hmk 3 (j 1)
  have m4 := hmk 4 (j 1)
  have m5 := hmk 5 (j 1)
  have m6 := hmk 6 (j 1)
  have m7 := hmk 7 (j 1)
  have m8 := hmk 8 (j 1)
  simp only [ninefold, shifted, src, tap]
  rw [m0, m1, m2, m3, m4, m5, m6, m7, m8]
  rcases h0 with h0 | h0 | h0 <;> rcases h1 with h1 | h1 | h1 <;>
    simp [h0, h1, rowOff_0, rowOff_1, rowOff_2, rowOff_3, rowOff_4, rowOff_5, rowOff_6, rowOff_7, rowOff_8,
      colOff_0, colOff_1, colOff_2, colOff_3, colOff_4, colOff_5, colOff_6, colOff_7, colOff_8,
      wordOf_0, wordOf_1, wordOf_2, off_neg, off_zero, off_one]

end Cert.Shift

end
-- ==== Proof.PreRange.lean ====
/-
  The precondition gives the range of the shift words.

  The precondition is the conjunction of three `all`s: the input is finite; every shift word is signed at least -1;
  every shift word is signed at most 1. Its value 1 makes each conjunct 1, an `all` that is 1 makes every element of
  its operand 1, and a signed comparison that is 1 orders the words' signed readings. A 32-bit word whose signed
  reading lies between -1 and 1 is one of the three words -1, 0, 1.
-/
import proofs.«427291_j15298673508386_1_alg».proof.Pre_finite_inputs
import proofs.«427291_j15298673508386_1_alg».proof.Proof.ShiftSpec
import Idealize.ShloMosaic.Lib.ReduceAll
import Idealize.ShloMosaic.Lib.ValueIdx

noncomputable section

namespace Cert.Shift

open Idealize.ShloMosaic Idealize.ShloMosaic.ValueIdx

/-- The scalar shape has one index. -/
instance scalarIdx_subsingleton : Subsingleton Cert.Pre_finite_inputs.S_.Idx := ⟨fun _ _ => funext fun d => d.elim0⟩

/-- A 32-bit word whose signed reading is at least that of -1 and at most that of 1 is -1, 0 or 1. -/
theorem word_of_range (w : BitVec 32) (h1 : (4294967295#32 : BitVec 32).toInt ≤ w.toInt)
    (h2 : w.toInt ≤ (1#32 : BitVec 32).toInt) : w = 4294967295#32 ∨ w = 0#32 ∨ w = 1#32 := by
  have e1 : (4294967295#32 : BitVec 32).toInt = -1 := by decide
  have e0 : (0#32 : BitVec 32).toInt = 0 := by decide
  have e2 : (1#32 : BitVec 32).toInt = 1 := by decide
  rw [e1] at h1
  rw [e2] at h2
  have hc : w.toInt = -1 ∨ w.toInt = 0 ∨ w.toInt = 1 := by omega
  rcases hc with hc | hc | hc
  · exact Or.inl (BitVec.eq_of_toInt_eq (by rw [hc, e1]))
  · exact Or.inr (Or.inl (BitVec.eq_of_toInt_eq (by rw [hc, e0])))
  · exact Or.inr (Or.inr (BitVec.eq_of_toInt_eq (by rw [hc, e2])))

theorem inRange_of_pre [Cert.Pre_finite_inputs.Facts] (x : FVec Ideal Cert.Pre_finite_inputs.S32x256x56x56 .f32)
    (sh : IVec Cert.Pre_finite_inputs.S256x2 32)
    (h : Cert.Pre_finite_inputs.fn (F := Ideal) x sh = (fun _ => 1#1)) : InRange sh := by
  have h0 := congrFun h ix0
  dsimp only [Cert.Pre_finite_inputs.fn] at h0
  obtain ⟨h7, h10⟩ := IntOp.andi_eq_one.1 h0
  obtain ⟨-, h6⟩ := IntOp.andi_eq_one.1 h7
  intro i
  have g6 := Host.reduce_andi_all _ _ _ _ _ h6 i
  have g10 := Host.reduce_andi_all _ _ _ _ _ h10 i
  exact word_of_range (sh i) (IntOp.cmpi_sge.1 g6) (IntOp.cmpi_sle.1 g10)

end Cert.Shift

end
-- ==== Proof.ShiftBlockSpec.lean ====
/-
  The nine-fold sum on one block.

  At a grid point the kernel sees a padded block `x0 : [8, 16, 58, 58]` (eight batch entries, sixteen channels, the
  whole padded plane) and a mask block `x1 : [9, 16, 1, 1]` (the nine masks of the same sixteen channels). Its result
  block at `[p, q, r, s]` is the sum from zero, in order, of the nine products
  `x0[p, q, r + a, s + b] · x1[i, q, 0, 0]`, `(a, b)` the `i`-th pair of offsets.
-/
import proofs.«427291_j15298673508386_1_alg».proof.Proof.ShiftSpec

noncomputable section

namespace Cert.Shift

open Idealize.ShloMosaic Idealize.ShloMosaic.ValueIdx

/-- A padded block, a mask block, a result block. -/
abbrev BX : Shape := ⟨4, ![8, 16, 58, 58]⟩
abbrev BM : Shape := ⟨4, ![9, 16, 1, 1]⟩
abbrev BO : Shape := ⟨4, ![8, 16, 56, 56]⟩

/-- The `i`-th product on a block. -/
def blockTap (x0 : BX.Idx → EReal) (x1 : BM.Idx → EReal) (p : Fin 8) (q : Fin 16) (r s : Fin 56) (i : Fin 9) : EReal :=
  x0 (ix4 (n0 := 8) (n1 := 16) (n2 := 58) (n3 := 58) p q (moved r (rowOff i) (rowOff_le i)) (moved s (colOff i) (colOff_le i)))
    * x1 (ix4 (n0 := 9) (n1 := 16) (n2 := 1) (n3 := 1) i q 0 0)

/-- The nine products summed from zero, in the kernel's order, at the block index `[p, q, r, s]`. -/
def blockSum (x0 : BX.Idx → EReal) (x1 : BM.Idx → EReal) (p : Fin 8) (q : Fin 16) (r s : Fin 56) : EReal :=
  0 + blockTap x0 x1 p q r s 0 + blockTap x0 x1 p q r s 1 + blockTap x0 x1 p q r s 2 + blockTap x0 x1 p q r s 3
    + blockTap x0 x1 p q r s 4 + blockTap x0 x1 p q r s 5 + blockTap x0 x1 p q r s 6 + blockTap x0 x1 p q r s 7
    + blockTap x0 x1 p q r s 8

/-- The same as a block. -/
def blockNinefold (x0 : BX.Idx → EReal) (x1 : BM.Idx → EReal) : BO.Idx → EReal :=
  fun y => blockSum x0 x1 (y 0) (y 1) (y 2) (y 3)

end Cert.Shift

end
-- ==== Proof.KernelPayload.lean ====
/-
  What the kernel's body stores, read at an index.

  The body's arithmetic starts from a zero block and adds nine products in order. The `i`-th product, `i` the pair of
  offsets `(a, b)` in {0, 1, 2}² in row-major order, multiplies the 56 × 56 window of the padded block `x0` at offset
  `(a, b)` — at `[p, q, r, s]` the element `x0[p, q, r + a, s + b]` — by mask row `i` of `x1`, cast to `[16, 1, 1]` and
  back and broadcast over batch and space — at `[p, q, r, s]` the element `x1[i, q, 0, 0]`. Every operation between the
  loads and the store is pointwise or a re-indexing, so at `[p, q, r, s]` the stored value is the sum from zero, in order,
  of the nine products `x0[p, q, r + a, s + b] · x1[i, q, 0, 0]`: the block form of the nine-fold sum.
-/
import proofs.«427291_j15298673508386_1_alg».proof.Proof.ShiftFrame
import proofs.«427291_j15298673508386_1_alg».proof.Proof.ShiftBlockSpec
import Idealize.ShloMosaic.Lib.Pipeline.Value
import Idealize.ShloMosaic.Lib.ValueIdx
import Idealize.ShloMosaic.PureOps.Ideal.Laws

noncomputable section

namespace Cert.KernelIdeal.KValue

open Cert.KernelIdeal Cert.KernelIdeal.Gen
open Idealize.ShloMosaic Idealize.ShloMosaic.ValueIdx
open Cert.Shift (moved rowOff colOff blockTap blockSum blockNinefold)

/-! ## The re-indexing operations at an index -/

/-- A slice of the padded block, 56 × 56 at offset `(a, b)`, read at `[p, q, r, s]` is the block at `[p, q, r + a, s + b]`. -/
theorem ld_slice (x0 : Vec Ideal S8x16x58x58 .f32) (a b : Nat) (ha : a ≤ 2) (hb : b ≤ 2)
    (inb : ∀ k, (![0, 0, a, b] : Fin 4 → Nat) k + S8x16x56x56.size k ≤ S8x16x58x58.size k)
    (p : Fin 8) (q : Fin 16) (r s : Fin 56) :
    View.ld x0 (Rect.unit (s := S8x16x58x58) ![0, 0, a, b] S8x16x56x56.size inb) (ix4 p q r s)
      = x0 (ix4 p q (moved r a ha) (moved s b hb)) := by
  show x0 _ = x0 _
  refine congrArg x0 (funext fun k => Fin.ext ?_)
  match k with
  | ⟨0, _⟩ => show 0 + 1 * p.val = p.val; omega
  | ⟨1, _⟩ => show 0 + 1 * q.val = q.val; omega
  | ⟨2, _⟩ => show a + 1 * r.val = r.val + a; omega
  | ⟨3, _⟩ => show b + 1 * s.val = s.val + b; omega

/-- Mask row `i` read at `[0, q, 0, 0]` is the mask block at `[i, q, 0, 0]`. -/
theorem ld_row (x1 : Vec Ideal S9x16x1x1 .f32) (i : Nat) (hi : i < 9)
    (inb : ∀ k, (![i, 0, 0, 0] : Fin 4 → Nat) k + S1x16x1x1.size k ≤ S9x16x1x1.size k)
    (q : Fin 16) :
    View.ld x1 (Rect.unit (s := S9x16x1x1) ![i, 0, 0, 0] S1x16x1x1.size inb) (ix4 (n0 := 1) (n2 := 1) (n3 := 1) 0 q 0 0)
      = x1 (ix4 (n2 := 1) (n3 := 1) (⟨i, hi⟩ : Fin 9) q 0 0) := by
  show x1 _ = x1 _
  refine congrArg x1 (funext fun k => Fin.ext ?_)
  match k with
  | ⟨0, _⟩ => show i + 1 * 0 = i; omega
  | ⟨1, _⟩ => show 0 + 1 * q.val = q.val; omega
  | ⟨2, _⟩ => show 0 + 1 * 0 = 0; omega
  | ⟨3, _⟩ => show 0 + 1 * 0 = 0; omega

/-- A mask row cast to `[16, 1, 1]` and back, then broadcast over batch and space, read at `[p, q, r, s]` is the
    row at `[0, q, 0, 0]`. -/
theorem row_bcast (v : Vec Ideal S1x16x1x1 .f32) (p : Fin 8) (q : Fin 16) (r s : Fin 56) :
    broadcastTo S8x16x56x56 (shapeCast S1x16x1x1 (shapeCast S16x1x1 v shapeCasts_S1x16x1x1_S16x1x1) shapeCasts_S16x1x1_S1x16x1x1)
        broadcasts_S1x16x1x1_S8x16x56x56 (ix4 p q r s)
      = v (ix4 (n0 := 1) (n2 := 1) (n3 := 1) 0 q 0 0) := by
  rw [shapeCast_shapeCast]
  refine broadcastTo_apply v _ _ _ fun k => ?_
  match k with
  | ⟨0, _⟩ => rfl
  | ⟨1, _⟩ => rfl
  | ⟨2, _⟩ => rfl
  | ⟨3, _⟩ => rfl

/-- The zero word is the real zero. -/
theorem zero_word : (Scalar.ofBits (F := Ideal) .f32 0x00000000#32 : Ideal .f32) = 0 := Ideal.ofBits_zero_f32

/-! ## The stored block -/

/-- The value the body stores is the nine-fold sum of the two input blocks. At an index `[p, q, r, s]` the pointwise
    operations read through, each mask row's casts and broadcast read the row at `[0, q, 0, 0]`, each load reads its
    block at the window's offset, and the offsets `(i / 3, i % 3)` of the nine pairs are the windows' literals. -/
theorem ninefoldSum_eq (x0 : Vec Ideal S8x16x58x58 .f32) (x1 : Vec Ideal S9x16x1x1 .f32) :
    Frm.ninefoldSum (F := Ideal) x0 x1 = Cert.Shift.blockNinefold x0 x1 := by
  funext y
  obtain ⟨p, q, r, s, rfl⟩ : ∃ p q r s, y = ix4 p q r s := ⟨y 0, y 1, y 2, y 3, eq_ix4 y⟩
  unfold Frm.ninefoldSum Gen.k0_pay1 Gen.k0_pay4 Gen.k0_pay2 Gen.k0_pay3
  simp only [addf_apply, mulf_apply, broadcast_apply, shapeCast_self, zero_word]
  rw [row_bcast (View.ld x1 Frm.rm0) p q r s, row_bcast (View.ld x1 Frm.rm1) p q r s,
    row_bcast (View.ld x1 Frm.rm2) p q r s, row_bcast (View.ld x1 Frm.rm3) p q r s,
    row_bcast (View.ld x1 Frm.rm4) p q r s, row_bcast (View.ld x1 Frm.rm5) p q r s,
    row_bcast (View.ld x1 Frm.rm6) p q r s, row_bcast (View.ld x1 Frm.rm7) p q r s,
    row_bcast (View.ld x1 Frm.rm8) p q r s]
  rw [ld_row x1 0 (by omega) _ q, ld_row x1 1 (by omega) _ q, ld_row x1 2 (by omega) _ q,
    ld_row x1 3 (by omega) _ q, ld_row x1 4 (by omega) _ q, ld_row x1 5 (by omega) _ q,
    ld_row x1 6 (by omega) _ q, ld_row x1 7 (by omega) _ q, ld_row x1 8 (by omega) _ q]
  rw [ld_slice x0 0 0 (by omega) (by omega) _ p q r s, ld_slice x0 0 1 (by omega) (by omega) _ p q r s,
    ld_slice x0 0 2 (by omega) (by omega) _ p q r s, ld_slice x0 1 0 (by omega) (by omega) _ p q r s,
    ld_slice x0 1 1 (by omega) (by omega) _ p q r s, ld_slice x0 1 2 (by omega) (by omega) _ p q r s,
    ld_slice x0 2 0 (by omega) (by omega) _ p q r s, ld_slice x0 2 1 (by omega) (by omega) _ p q r s,
    ld_slice x0 2 2 (by omega) (by omega) _ p q r s]
  rfl

end Cert.KernelIdeal.KValue

end
-- ==== Proof.KernelValue.lean ====
/-
  From the blocks the idealized kernel writes to its whole result array.

  The grid has 4 × 16 points `(b, q)`. At a point the padded array's window is its block of batch entries `8 b + ·`
  and channels `16 q + ·` (the whole 58 × 58 plane), the masks' window is the block of all nine masks of the same
  channels, and the result's window is the block of the same batch entries and channels (the whole 56 × 56 plane).
  The body leaves in the result's block the nine-fold sum of the two input blocks, which, index by index, is the
  nine-fold sum of the two arrays at the block's place in the result array. The 64 blocks tile the result array
  (the block that holds `[n, ch, ·, ·]` is the one of the point `(n / 8, ch / 16)`), so the array ends holding the
  nine-fold sum of the padded array and the mask array.
-/
import proofs.«427291_j15298673508386_1_alg».proof.Proof.ShiftFrame
import proofs.«427291_j15298673508386_1_alg».proof.Proof.ShiftBlockSpec
import proofs.«427291_j15298673508386_1_alg».proof.Proof.ShiftSpec
import proofs.«427291_j15298673508386_1_alg».proof.Proof.KernelPayload
import Idealize.ShloMosaic.Lib.Pipeline.Value

noncomputable section

namespace Cert.KernelIdeal.KValue

section BlockAtItsPlace

open Cert.Shift Idealize.ShloMosaic Idealize.ShloMosaic.ValueIdx

/-- One product on a block is the same product on the arrays, when the padded block is the padded array read at
    batch entries `8 b + ·` and channels `16 q + ·` (the whole plane), the mask block is the mask array read at the
    same channels (all nine masks), and `j` is the array index of the block index `y` of the result. -/
theorem blockTap_eq_tap (x0 : BX.Idx → EReal) (x1 : BM.Idx → EReal) (xp : SP.Idx → EReal) (mk : SM.Idx → EReal)
    (e0 : BX.Idx → SP.Idx) (e1 : BM.Idx → SM.Idx) (b q : Nat)
    (h0 : ∀ y, x0 y = xp (e0 y)) (h1 : ∀ y, x1 y = mk (e1 y))
    (h00 : ∀ y, (e0 y 0).val = b * 8 + (y 0).val) (h01 : ∀ y, (e0 y 1).val = q * 16 + (y 1).val)
    (h02 : ∀ y, (e0 y 2).val = (y 2).val) (h03 : ∀ y, (e0 y 3).val = (y 3).val)
    (h10 : ∀ y, (e1 y 0).val = (y 0).val) (h11 : ∀ y, (e1 y 1).val = q * 16 + (y 1).val)
    (y : BO.Idx) (j : SX.Idx) (hj0 : (j 0).val = b * 8 + (y 0).val) (hj1 : (j 1).val = q * 16 + (y 1).val)
    (hj2 : (j 2).val = (y 2).val) (hj3 : (j 3).val = (y 3).val) (i : Fin 9) :
    blockTap x0 x1 (y 0) (y 1) (y 2) (y 3) i = tap xp mk j i := by
  unfold blockTap tap
  rw [h0, h1]
  have a0 : e0 (ix4 (n0 := 8) (n1 := 16) (n2 := 58) (n3 := 58) (y 0) (y 1) (moved (y 2) (rowOff i) (rowOff_le i)) (moved (y 3) (colOff i) (colOff_le i)))
      = ix4 (n0 := 32) (n1 := 256) (n2 := 58) (n3 := 58) (j 0) (j 1) (moved (j 2) (rowOff i) (rowOff_le i)) (moved (j 3) (colOff i) (colOff_le i)) := by
    funext a; apply Fin.ext
    match a with
    | ⟨0, _⟩ => exact (h00 _).trans hj0.symm
    | ⟨1, _⟩ => exact (h01 _).trans hj1.symm
    | ⟨2, _⟩ => exact (h02 _).trans (show (y 2).val + rowOff i = (j 2).val + rowOff i by rw [hj2])
    | ⟨3, _⟩ => exact (h03 _).trans (show (y 3).val + colOff i = (j 3).val + colOff i by rw [hj3])
  have a1 : e1 (ix4 (n0 := 9) (n1 := 16) (n2 := 1) (n3 := 1) i (y 1) 0 0)
      = ix4 (n0 := 9) (n1 := 256) (n2 := 1) (n3 := 1) i (j 1) 0 0 := by
    funext a; apply Fin.ext
    match a with
    | ⟨0, _⟩ => exact h10 _
    | ⟨1, _⟩ => exact (h11 _).trans hj1.symm
    | ⟨2, _⟩ => exact Nat.lt_one_iff.mp (e1 _ 2).isLt
    | ⟨3, _⟩ => exact Nat.lt_one_iff.mp (e1 _ 3).isLt
  rw [a0, a1]

/-- So the nine-fold sum on the block at `y` is the nine-fold sum on the arrays at `j`. -/
theorem blockNinefold_eq_ninefold (x0 : BX.Idx → EReal) (x1 : BM.Idx → EReal) (xp : SP.Idx → EReal) (mk : SM.Idx → EReal)
    (e0 : BX.Idx → SP.Idx) (e1 : BM.Idx → SM.Idx) (b q : Nat)
    (h0 : ∀ y, x0 y = xp (e0 y)) (h1 : ∀ y, x1 y = mk (e1 y))
    (h00 : ∀ y, (e0 y 0).val = b * 8 + (y 0).val) (h01 : ∀ y, (e0 y 1).val = q * 16 + (y 1).val)
    (h02 : ∀ y, (e0 y 2).val = (y 2).val) (h03 : ∀ y, (e0 y 3).val = (y 3).val)
    (h10 : ∀ y, (e1 y 0).val = (y 0).val) (h11 : ∀ y, (e1 y 1).val = q * 16 + (y 1).val)
    (y : BO.Idx) (j : SX.Idx) (hj0 : (j 0).val = b * 8 + (y 0).val) (hj1 : (j 1).val = q * 16 + (y 1).val)
    (hj2 : (j 2).val = (y 2).val) (hj3 : (j 3).val = (y 3).val) :
    blockNinefold x0 x1 y = ninefold xp mk j := by
  have T := blockTap_eq_tap x0 x1 xp mk e0 e1 b q h0 h1 h00 h01 h02 h03 h10 h11 y j hj0 hj1 hj2 hj3
  show blockSum x0 x1 (y 0) (y 1) (y 2) (y 3) = 0 + tap xp mk j 0 + tap xp mk j 1 + tap xp mk j 2 + tap xp mk j 3
    + tap xp mk j 4 + tap xp mk j 5 + tap xp mk j 6 + tap xp mk j 7 + tap xp mk j 8
  unfold blockSum
  rw [T 0, T 1, T 2, T 3, T 4, T 5, T 6, T 7, T 8]

end BlockAtItsPlace

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- Four zero offsets, however spelt. -/
theorem zero_offsets : (![0, 0, 0, 0] : Fin 4 → Nat) = fun _ => 0 := funext fun a => by fin_cases a <;> rfl

/-- The printed index maps, decided over the 64 points: the padded array's block moves with the result's block on the
    batch and channel axes, the masks' block on the channel axis; every other block index is zero; the result's block
    indices stay below 4 and 16. -/
theorem index_relations : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = 0 ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 3 ∧ win0_2.index t (1 : Fin 4) ≤ 15 :=
  (by decide +kernel : ∀ t : Fin grid0.N, _)

/-- Every pair of a batch block and a channel block is some point's. -/
theorem index_onto : ∀ (q0 : Fin 4) (q1 : Fin 16), ∃ t : Fin cfg0.N,
    win0_2.index t (0 : Fin 4) = q0.val ∧ win0_2.index t (1 : Fin 4) = q1.val :=
  (by decide +kernel : ∀ (q0 : Fin 4) (q1 : Fin 16), ∃ t : Fin grid0.N,
    win0_2.index t (0 : Fin 4) = q0.val ∧ win0_2.index t (1 : Fin 4) = q1.val)

/-- The padded array's block at point `t` is the padded array read at the block's place, -/
theorem padded_block (c : Dev nD) (t : Fin cfg0.N) (y' : S8x16x58x58.Idx) :
    Frm.iblk m c 0 t y' = Frm.V m c main_v0 (((cfg0.win 0).blk t).view.emb y') := rfl

/-- and the masks' block the mask array. -/
theorem mask_block (c : Dev nD) (t : Fin cfg0.N) (y' : S9x16x1x1.Idx) :
    Frm.iblk m c 1 t y' = Frm.V m c main_v101 (((cfg0.win 1).blk t).view.emb y') := rfl

/-- Where the padded array's block at point `t` lies, in terms of the result's block indices `(b, q)`: batch entries
    `8 b + ·`, channels `16 q + ·`, the whole plane. -/
theorem padded_place (t : Fin cfg0.N) (y' : S8x16x58x58.Idx) :
    ((((cfg0.win 0).blk t).view.emb y' : S32x256x58x58.Idx) 0).val = win0_2.index t (0 : Fin 4) * 8 + (y' 0).val
    ∧ ((((cfg0.win 0).blk t).view.emb y' : S32x256x58x58.Idx) 1).val = win0_2.index t (1 : Fin 4) * 16 + (y' 1).val
    ∧ ((((cfg0.win 0).blk t).view.emb y' : S32x256x58x58.Idx) 2).val = (y' 2).val
    ∧ ((((cfg0.win 0).blk t).view.emb y' : S32x256x58x58.Idx) 3).val = (y' 3).val := by
  obtain ⟨e00, e01, e02, e03, -⟩ := index_relations t
  refine ⟨?_, ?_, ?_, ?_⟩
  · show win0_0.index t (0 : Fin 4) * 8 + 1 * (y' 0).val = _; omega
  · show win0_0.index t (1 : Fin 4) * 16 + 1 * (y' 1).val = _; omega
  · show win0_0.index t (2 : Fin 4) * 58 + 1 * (y' 2).val = _; omega
  · show win0_0.index t (3 : Fin 4) * 58 + 1 * (y' 3).val = _; omega

/-- Where the masks' block lies: all nine masks, channels `16 q + ·`. -/
theorem mask_place (t : Fin cfg0.N) (y' : S9x16x1x1.Idx) :
    ((((cfg0.win 1).blk t).view.emb y' : S9x256x1x1.Idx) 0).val = (y' 0).val
    ∧ ((((cfg0.win 1).blk t).view.emb y' : S9x256x1x1.Idx) 1).val = win0_2.index t (1 : Fin 4) * 16 + (y' 1).val := by
  obtain ⟨-, -, -, -, e10, e11, -⟩ := index_relations t
  refine ⟨?_, ?_⟩
  · show win0_1.index t (0 : Fin 4) * 9 + 1 * (y' 0).val = _; omega
  · show win0_1.index t (1 : Fin 4) * 16 + 1 * (y' 1).val = _; omega

/-- Where the result's block lies: batch entries `8 b + ·`, channels `16 q + ·`, the whole plane. -/
theorem result_place (t : Fin cfg0.N) (y : S8x16x56x56.Idx) :
    ((((cfg0.win 2).blk t).view.emb y : S32x256x56x56.Idx) 0).val = win0_2.index t (0 : Fin 4) * 8 + (y 0).val
    ∧ ((((cfg0.win 2).blk t).view.emb y : S32x256x56x56.Idx) 1).val = win0_2.index t (1 : Fin 4) * 16 + (y 1).val
    ∧ ((((cfg0.win 2).blk t).view.emb y : S32x256x56x56.Idx) 2).val = (y 2).val
    ∧ ((((cfg0.win 2).blk t).view.emb y : S32x256x56x56.Idx) 3).val = (y 3).val := by
  obtain ⟨-, -, -, -, -, -, -, -, e22, e23, -⟩ := index_relations t
  refine ⟨?_, ?_, ?_, ?_⟩
  · show win0_2.index t (0 : Fin 4) * 8 + 1 * (y 0).val = _; omega
  · show win0_2.index t (1 : Fin 4) * 16 + 1 * (y 1).val = _; omega
  · show win0_2.index t (2 : Fin 4) * 56 + 1 * (y 2).val = _; omega
  · show win0_2.index t (3 : Fin 4) * 56 + 1 * (y 3).val = _; omega

/-- What point `t` writes back is block `t` of the nine-fold sum of the padded array and the mask array. -/
theorem flushed_eq (c : Dev nD) (t : Fin cfg0.N) :
    (Frm.dats (F := Ideal) m 0 c).flushed 2 t
      = ((cfg0.win 2).blk t).view.read (Elt Ideal) (Cert.Shift.ninefold (Frm.V m c main_v0) (Frm.V m c main_v101)) := by
  show (cfg0.win 2).cut (grid0.coords t) ((Frm.dats m 0 c).after 2 t) = _
  rw [Frm.after_result]
  unfold Frm.resultBlock
  rw [View.canon_unit_zero zero_offsets]
  rw [ninefoldSum_eq]
  funext y
  show Cert.Shift.blockNinefold (Frm.iblk m c 0 t) (Frm.iblk m c 1 t) y
    = Cert.Shift.ninefold (Frm.V m c main_v0) (Frm.V m c main_v101) (((cfg0.win 2).blk t).view.emb y)
  exact blockNinefold_eq_ninefold _ _ _ _
    (fun y' => ((cfg0.win 0).blk t).view.emb y') (fun y' => ((cfg0.win 1).blk t).view.emb y')
    (win0_2.index t (0 : Fin 4)) (win0_2.index t (1 : Fin 4)) (padded_block m c t) (mask_block m c t)
    (fun y' => (padded_place t y').1) (fun y' => (padded_place t y').2.1)
    (fun y' => (padded_place t y').2.2.1) (fun y' => (padded_place t y').2.2.2)
    (fun y' => (mask_place t y').1) (fun y' => (mask_place t y').2) y _
    (result_place t y).1 (result_place t y).2.1 (result_place t y).2.2.1 (result_place t y).2.2.2

/-- An index of the result array is in point `t`'s block iff each coordinate is in the block's range on its axis. -/
theorem mem_block (t : Fin cfg0.N) (i : S32x256x56x56.Idx) :
    i ∈ ((cfg0.win 2).blk t).view.set ↔ ∀ a : Fin 4, win0_2.index t a * S8x16x56x56.size a ≤ (i a).val
      ∧ (i a).val < win0_2.index t a * S8x16x56x56.size a + S8x16x56x56.size a := by
  show i ∈ ((View.whole main_v102).slice (win0_2.rect t)).set ↔ _
  rw [View.set_slice_whole, Rect.mem_set_unit]
  exact Iff.rfl

/-- The blocks tile the result array: `[n, ch, ·, ·]` is in the block of the point `(n / 8, ch / 16)`. -/
theorem covered (i : S32x256x56x56.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 56 := (i 2).isLt
  have hi3 : (i 3).val < 56 := (i 3).isLt
  obtain ⟨t, q0, q1⟩ := index_onto ⟨(i 0).val / 8, by omega⟩ ⟨(i 1).val / 16, by omega⟩
  have q0' : win0_2.index t (0 : Fin 4) = (i 0).val / 8 := q0
  have q1' : win0_2.index t (1 : Fin 4) = (i 1).val / 16 := q1
  obtain ⟨-, -, -, -, -, -, -, -, e22, e23, -⟩ := index_relations t
  refine ⟨t, flush0_2 t, ?_⟩
  rw [mem_block]
  intro a
  match a with
  | ⟨0, _⟩ => show win0_2.index t (0 : Fin 4) * 8 ≤ (i 0).val ∧ (i 0).val < win0_2.index t (0 : Fin 4) * 8 + 8; omega
  | ⟨1, _⟩ => show win0_2.index t (1 : Fin 4) * 16 ≤ (i 1).val ∧ (i 1).val < win0_2.index t (1 : Fin 4) * 16 + 16; omega
  | ⟨2, _⟩ => show win0_2.index t (2 : Fin 4) * 56 ≤ (i 2).val ∧ (i 2).val < win0_2.index t (2 : Fin 4) * 56 + 56; omega
  | ⟨3, _⟩ => show win0_2.index t (3 : Fin 4) * 56 ≤ (i 3).val ∧ (i 3).val < win0_2.index t (3 : Fin 4) * 56 + 56; omega

/-- The result array after the run is the nine-fold sum of the padded array and the mask array. -/
theorem result_eq (c : Dev nD) :
    (Frm.dats (F := Ideal) m 0 c).arrAt 2 cfg0.N = Cert.Shift.ninefold (Frm.V m c main_v0) (Frm.V m c main_v101) :=
  (Frm.dats (F := Ideal) m 0 c).arrAt_eq_of_cover 2 (Cert.Shift.ninefold (Frm.V m c main_v0) (Frm.V m c main_v101))
    (fun t _ => flushed_eq m c t) covered

end Cert.KernelIdeal.KValue

end
-- ==== Proof.KernelHost.lean ====
/-
  What the idealized kernel's region finds in its two windows' arrays that host operations wrote.

  Before the region the program pads the input by a zero converted from an integer constant, and builds the nine masks:
  for each of the nine pairs of words among -1, 0, 1, in row-major order, both columns of the shift words are compared
  with the pair's words, the two bits are conjoined and the bit is converted to a float; the nine vectors are laid out as
  rows, joined along a new leading axis and given two unit axes.

  The padded array is the pad of the launched input. The masks are the one-hot code of the shift words: read at
  `[i, c, 0, 0]` the joined array is row `i` at channel `c`, the converted conjunction of the two comparisons of channel
  `c`'s words with the `i`-th pair, which is 1 when both hold and 0 otherwise.

  The third stretch is 119 operations. Its values are computed group by group: a buffer that no later operation writes
  holds after the whole stretch what its own group of twelve operations leaves in it, and that group reads the shift
  words, which no operation writes.
-/
import proofs.«427291_j15298673508386_1_alg».proof.Proof.ShiftEntry
import proofs.«427291_j15298673508386_1_alg».proof.Proof.ShiftSpec
import Idealize.ShloMosaic.Lib.StableHlo.Run
import Idealize.ShloMosaic.Lib.Pipeline.Value
import Idealize.ShloMosaic.Lib.StableHlo.Predicate

set_option maxRecDepth 16384

noncomputable section

namespace Cert.KernelIdeal.HostVals

open Cert.KernelIdeal Cert.KernelIdeal.Gen
open Idealize.ShloMosaic Idealize.ShloMosaic.TcCoe
open Idealize.SL.Sem
open Idealize.ShloMosaic.ValueIdx

/-! ## Lines of operations cut in parts -/

section General
variable {τ' : Topo} {sig' : RefSig} {Val : EltTy → Type}

/-- Two lines of operations run one after the other. -/
theorem after_append (l₁ l₂ : List (HloOp τ' sig' Val)) (V : Valuation τ' sig' Val) :
    StableHlo.after (l₁ ++ l₂) V = StableHlo.after l₂ (StableHlo.after l₁ V) := by
  induction l₁ generalizing V with
  | nil => rfl
  | cons op l ih => simp only [List.cons_append, StableHlo.after_cons, ih]

/-- A buffer that no operation past the first `n + k` writes holds, after the whole line, what operations
    `n` to `n + k - 1` leave in it. -/
theorem after_window (l : List (HloOp τ' sig' Val)) (n k : Nat) (V : Valuation τ' sig' Val) {b : DevRef τ' sig'}
    (h : (l.drop (n + k)).Forall fun op => b ∉ op.writes) :
    StableHlo.after l V b = StableHlo.after ((l.drop n).take k) (StableHlo.after (l.take n) V) b := by
  have e : l.take n ++ ((l.drop n).take k ++ l.drop (n + k)) = l := by
    rw [← List.drop_drop, List.take_append_drop, List.take_append_drop]
  calc StableHlo.after l V b
      = StableHlo.after (l.take n ++ ((l.drop n).take k ++ l.drop (n + k))) V b := by rw [e]
    _ = StableHlo.after ((l.drop n).take k) (StableHlo.after (l.take n) V) b := by
        rw [after_append, after_append, StableHlo.after_of_forall_not_mem _ _ (List.forall_iff_forall_mem.mp h)]

/-- A buffer no operation of the line writes keeps its contents through any first part of the line. -/
theorem after_take_of_not_written (l : List (HloOp τ' sig' Val)) (n : Nat) (V : Valuation τ' sig' Val) {b : DevRef τ' sig'}
    (h : l.Forall fun op => b ∉ op.writes) : StableHlo.after (l.take n) V b = V b :=
  StableHlo.after_of_forall_not_mem _ _ fun op hop => List.forall_iff_forall_mem.mp h op (List.mem_of_mem_take hop)

/-- A buffer no operation past the first `n` writes holds after any first part of at least `n` operations what it holds
    after all. -/
theorem after_take_eq (l : List (HloOp τ' sig' Val)) (n N : Nat) (hN : n ≤ N) (V : Valuation τ' sig' Val) {b : DevRef τ' sig'}
    (h : (l.drop n).Forall fun op => b ∉ op.writes) : StableHlo.after (l.take N) V b = StableHlo.after l V b := by
  obtain ⟨j, rfl⟩ := Nat.exists_eq_add_of_le hN
  have e := after_append (l.take (n + j)) (l.drop (n + j)) V
  rw [List.take_append_drop] at e
  rw [e]
  exact (StableHlo.after_of_forall_not_mem (l.drop (n + j)) _ fun op hop => List.forall_iff_forall_mem.mp h op (by
    rw [← List.drop_drop] at hop; exact List.mem_of_mem_drop hop)).symm

/-- The result of an operation over nine literal operands, each operand's contents at its own reference. -/
theorem nary9_result {x0 x1 x2 x3 x4 x5 x6 x7 x8 y : Ref sig' .tc}
    (f : ((k : Fin 9) → ((![x0, x1, x2, x3, x4, x5, x6, x7, x8] : Fin 9 → Ref sig' .tc) k).ty.Contents Val) → y.ty.Contents Val) (hxs hy)
    (F : Valuation τ' sig' Val) :
    (StableHlo.nary (τ := τ') ![x0, x1, x2, x3, x4, x5, x6, x7, x8] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (fun i => i.elim0)))))))))) := by
  rw [StableHlo.nary_result]; congr 1; funext k; fin_cases k <;> rfl

end General

/-! ## One mask, read at a channel -/

/-- One mask as the program computes it from the shift words: both columns compared with a word, the two bits
    conjoined, the bit converted. -/
def maskRow (sh : IVec S256x2 32) (w0 w1 : BitVec 32) : FVec Ideal S256 .f32 :=
  uitofp (F := Ideal) .f32
    (andi
      (cmpi .eq (shapeCast S256 (extractStridedSlice S256x1 ![0, 0] sh slices_S256x2_S256x1_0_0) shapeCasts_S256x1_S256)
        (broadcastInDim S256 ![] bcast_S_S256 (constantI S_ 32 w0)))
      (cmpi .eq (shapeCast S256 (extractStridedSlice S256x1 ![0, 1] sh slices_S256x2_S256x1_0_1) shapeCasts_S256x1_S256)
        (broadcastInDim S256 ![] bcast_S_S256 (constantI S_ 32 w1))))

/-- The conjunction of two word comparisons, converted: 1 when both hold, else 0. -/
theorem bit_toReal (a b w0 w1 : BitVec 32) :
    (((IntOp.andi (IntOp.cmpi .eq a w0) (IntOp.cmpi .eq b w1)).toNat : ℝ) : EReal) = if a = w0 ∧ b = w1 then 1 else 0 := by
  by_cases h0 : a = w0 <;> by_cases h1 : b = w1
  · subst h0 h1; simp [IntOp.andi, IntOp.cmpi]
  · have e : (b == w1) = false := beq_eq_false_iff_ne.mpr h1
    simp [IntOp.andi, IntOp.cmpi, h0, h1, e]
  · have e : (a == w0) = false := beq_eq_false_iff_ne.mpr h0
    simp [IntOp.andi, IntOp.cmpi, h0, h1, e]
  · have e : (a == w0) = false := beq_eq_false_iff_ne.mpr h0
    simp [IntOp.andi, IntOp.cmpi, h0, h1, e]

/-- Column 0 of the shift words, as a vector, at a channel. -/
theorem col0_apply (sh : IVec S256x2 32) (ch : Fin 256) :
    shapeCast S256 (extractStridedSlice S256x1 ![0, 0] sh slices_S256x2_S256x1_0_0) shapeCasts_S256x1_S256 (ix1 ch)
      = sh (ix2 (n0 := 256) (n1 := 2) ch 0) := by
  rw [shapeCast_apply _ _ (ix1 ch) (ix2 (n0 := 256) (n1 := 1) ch 0) (by
        rw [Shape.rowMajor_val_two, Shape.rowMajor_val_one]; simp),
    extractStridedSlice_apply _ _ _ _ (ix2 (n0 := 256) (n1 := 2) ch 0) (by
        intro a; fin_cases a <;> simp)]

/-- Column 1 of the shift words, as a vector, at a channel. -/
theorem col1_apply (sh : IVec S256x2 32) (ch : Fin 256) :
    shapeCast S256 (extractStridedSlice S256x1 ![0, 1] sh slices_S256x2_S256x1_0_1) shapeCasts_S256x1_S256 (ix1 ch)
      = sh (ix2 (n0 := 256) (n1 := 2) ch 1) := by
  rw [shapeCast_apply _ _ (ix1 ch) (ix2 (n0 := 256) (n1 := 1) ch 0) (by
        rw [Shape.rowMajor_val_two, Shape.rowMajor_val_one]; simp),
    extractStridedSlice_apply _ _ _ _ (ix2 (n0 := 256) (n1 := 2) ch 1) (by
        intro a; fin_cases a <;> simp)]

/-- A mask at a channel: 1 when the channel's two words are the mask's, else 0. -/
theorem maskRow_apply (sh : IVec S256x2 32) (w0 w1 : BitVec 32) (ch : Fin 256) :
    maskRow sh w0 w1 (ix1 ch)
      = if sh (ix2 (n0 := 256) (n1 := 2) ch 0) = w0 ∧ sh (ix2 (n0 := 256) (n1 := 2) ch 1) = w1 then 1 else 0 := by
  rw [← bit_toReal, ← col0_apply sh ch, ← col1_apply sh ch]
  rfl

/-- Mask `i` laid out as a row. -/
def rowOf (sh : IVec S256x2 32) (i : Fin 9) : S1x256.Idx → EReal :=
  broadcastInDim S1x256 ![1] bcast_S256_S1x256_1
    (maskRow sh (Cert.Shift.wordOf (Cert.Shift.rowOff i)) (Cert.Shift.wordOf (Cert.Shift.colOff i)))

/-- The nine rows joined and given two unit axes are the one-hot code of the shift words. -/
theorem code_of_rows (sh : IVec S256x2 32)
    (h : Shape.Concatenates ((List.ofFn fun n : Fin 9 => (⟨S1x256, rowOf sh n⟩ : (s : Shape) × (s.Idx → EReal))).map (·.1)) S9x256 0) :
    Cert.Shift.IsCode
      (broadcastInDim S9x256x1x1 ![0, 1] bcast_S9x256_S9x256x1x1_0_1
        (concatenate S9x256 0 (List.ofFn fun n : Fin 9 => (⟨S1x256, rowOf sh n⟩ : (s : Shape) × (s.Idx → EReal))) h)) sh := by
  intro i ch
  rw [broadcastInDim_apply _ _ _ _ (ix2 (n0 := 9) (n1 := 256) i ch) (by intro a; fin_cases a <;> rfl),
    concatenate_ofFn_unit_apply 0 (rowOf sh) h rfl rfl (ix2 (n0 := 9) (n1 := 256) i ch) i rfl (ix2 (n0 := 1) (n1 := 256) 0 ch)
      (by intro b hb; fin_cases b; · exact absurd rfl hb
          · rfl)]
  unfold rowOf
  rw [broadcastInDim_apply _ _ _ _ (ix1 ch) (by intro a; fin_cases a; rfl), maskRow_apply]

/-! ## The stretches' values -/

variable (m : (ℓ : Loc nD τ sig) → Buf (Elt Ideal) ℓ)

/-- The third stretch. -/
abbrev l2 : List (HloOp τ sig (Elt Ideal)) := hostOps0_2

/-- Core `c`'s buffers after the first two stretches. -/
def Y (c : Dev nD) : Valuation τ sig (Elt Ideal) :=
  StableHlo.after hostOps0_1 (StableHlo.after hostOps0 (fun b => m (c, b)))

/-- The region is entered after the third stretch run from there. -/
theorem V_eq (c : Dev nD) (b : Ref sig .tc) : Frm.V m c b = StableHlo.after l2 (Y m c) (Proc.devRef .tc b) := by
  dsimp only [Frm.V]
  simp only [List.flatten_cons, List.flatten_nil, List.append_nil]
  rw [after_append, after_append]
  rfl

/-- The first two stretches leave the shift words as launched. -/
theorem Y_arg1 (c : Dev nD) : Y m c (Proc.devRef .tc main_arg1) = m ((c.tc : Thread nD τ).loc main_arg1) := by
  unfold Y
  simp only [Gen.hostOps0, Gen.hostOps0_1]
  after_results
  all_goals rfl

/-- Each operation's written buffer is not the given reference, one operation at a time. -/
macro "not_written" : tactic =>
  `(tactic| (simp only [l2, Gen.hostOps0_2, List.drop_succ_cons, List.drop_zero, List.Forall, StableHlo.nullary_writes,
               StableHlo.unary_writes, StableHlo.binary_writes, StableHlo.reshape_writes, StableHlo.nary_writes, Finset.mem_singleton]
             repeat' apply And.intro
             all_goals exact StableHlo.devRef_ne_of_ne (by decide)))

/-- The values of one group of operations, each operation's result read once. -/
macro "group_results" : tactic =>
  `(tactic| (simp only [l2, Gen.hostOps0_2, List.drop_succ_cons, List.drop_zero, List.take_succ_cons, List.take_zero]
             simp (disch := decide) only [StableHlo.after_cons, StableHlo.after_nil,
               StableHlo.nullary_result', StableHlo.unary_result', StableHlo.binary_result', StableHlo.reshape_result', nary9_result,
               StableHlo.nullary_result_ne', StableHlo.unary_result_ne', StableHlo.binary_result_ne', StableHlo.reshape_result_ne',
               StableHlo.nary_result_ne']))

set_option maxHeartbeats 4000000 in
/-- No operation of the third stretch writes the shift words. -/
theorem arg1_not_written : (l2 : List (HloOp τ sig (Elt Ideal))).Forall fun op => (Proc.devRef .tc main_arg1 : DevRef τ sig) ∉ op.writes := by
  not_written

/-! ### No operation after a mask's group writes the mask -/

set_option maxHeartbeats 4000000 in
theorem v10_after : ((l2 : List (HloOp τ sig (Elt Ideal))).drop (0 + 12)).Forall fun op => (Proc.devRef .tc main_v10 : DevRef τ sig) ∉ op.writes := by
  not_written
set_option maxHeartbeats 4000000 in
theorem v20_after : ((l2 : List (HloOp τ sig (Elt Ideal))).drop (12 + 12)).Forall fun op => (Proc.devRef .tc main_v20 : DevRef τ sig) ∉ op.writes := by
  not_written
set_option maxHeartbeats 4000000 in
theorem v30_after : ((l2 : List (HloOp τ sig (Elt Ideal))).drop (24 + 12)).Forall fun op => (Proc.devRef .tc main_v30 : DevRef τ sig) ∉ op.writes := by
  not_written
set_option maxHeartbeats 4000000 in
theorem v40_after : ((l2 : List (HloOp τ sig (Elt Ideal))).drop (36 + 12)).Forall fun op => (Proc.devRef .tc main_v40 : DevRef τ sig) ∉ op.writes := by
  not_written
set_option maxHeartbeats 4000000 in
theorem v50_after : ((l2 : List (HloOp τ sig (Elt Ideal))).drop (48 + 12)).Forall fun op => (Proc.devRef .tc main_v50 : DevRef τ sig) ∉ op.writes := by
  not_written
set_option maxHeartbeats 4000000 in
theorem v60_after : ((l2 : List (HloOp τ sig (Elt Ideal))).drop (60 + 12)).Forall fun op => (Proc.devRef .tc main_v60 : DevRef τ sig) ∉ op.writes := by
  not_written
set_option maxHeartbeats 4000000 in
theorem v70_after : ((l2 : List (HloOp τ sig (Elt Ideal))).drop (72 + 12)).Forall fun op => (Proc.devRef .tc main_v70 : DevRef τ sig) ∉ op.writes := by
  not_written
set_option maxHeartbeats 4000000 in
theorem v80_after : ((l2 : List (HloOp τ sig (Elt Ideal))).drop (84 + 12)).Forall fun op => (Proc.devRef .tc main_v80 : DevRef τ sig) ∉ op.writes := by
  not_written
set_option maxHeartbeats 4000000 in
theorem v90_after : ((l2 : List (HloOp τ sig (Elt Ideal))).drop (96 + 12)).Forall fun op => (Proc.devRef .tc main_v90 : DevRef τ sig) ∉ op.writes := by
  not_written
set_option maxHeartbeats 4000000 in
theorem v101_after : ((l2 : List (HloOp τ sig (Elt Ideal))).drop (108 + 11)).Forall fun op => (Proc.devRef .tc main_v101 : DevRef τ sig) ∉ op.writes := by
  not_written

/-! ### Each group of twelve operations, run from any contents, leaves its mask -/

set_option maxHeartbeats 4000000 in
theorem group0 (W : Valuation τ sig (Elt Ideal)) :
    (StableHlo.after ((l2.drop 0).take 12) W (Proc.devRef .tc main_v10) : S256.Idx → EReal)
      = maskRow (W (Proc.devRef .tc main_arg1)) 4294967295#32 4294967295#32 := by
  group_results
  rfl
set_option maxHeartbeats 4000000 in
theorem group1 (W : Valuation τ sig (Elt Ideal)) :
    (StableHlo.after ((l2.drop 12).take 12) W (Proc.devRef .tc main_v20) : S256.Idx → EReal)
      = maskRow (W (Proc.devRef .tc main_arg1)) 4294967295#32 0#32 := by
  group_results
  rfl
set_option maxHeartbeats 4000000 in
theorem group2 (W : Valuation τ sig (Elt Ideal)) :
    (StableHlo.after ((l2.drop 24).take 12) W (Proc.devRef .tc main_v30) : S256.Idx → EReal)
      = maskRow (W (Proc.devRef .tc main_arg1)) 4294967295#32 1#32 := by
  group_results
  rfl
set_option maxHeartbeats 4000000 in
theorem group3 (W : Valuation τ sig (Elt Ideal)) :
    (StableHlo.after ((l2.drop 36).take 12) W (Proc.devRef .tc main_v40) : S256.Idx → EReal)
      = maskRow (W (Proc.devRef .tc main_arg1)) 0#32 4294967295#32 := by
  group_results
  rfl
set_option maxHeartbeats 4000000 in
theorem group4 (W : Valuation τ sig (Elt Ideal)) :
    (StableHlo.after ((l2.drop 48).take 12) W (Proc.devRef .tc main_v50) : S256.Idx → EReal)
      = maskRow (W (Proc.devRef .tc main_arg1)) 0#32 0#32 := by
  group_results
  rfl
set_option maxHeartbeats 4000000 in
theorem group5 (W : Valuation τ sig (Elt Ideal)) :
    (StableHlo.after ((l2.drop 60).take 12) W (Proc.devRef .tc main_v60) : S256.Idx → EReal)
      = maskRow (W (Proc.devRef .tc main_arg1)) 0#32 1#32 := by
  group_results
  rfl
set_option maxHeartbeats 4000000 in
theorem group6 (W : Valuation τ sig (Elt Ideal)) :
    (StableHlo.after ((l2.drop 72).take 12) W (Proc.devRef .tc main_v70) : S256.Idx → EReal)
      = maskRow (W (Proc.devRef .tc main_arg1)) 1#32 4294967295#32 := by
  group_results
  rfl
set_option maxHeartbeats 4000000 in
theorem group7 (W : Valuation τ sig (Elt Ideal)) :
    (StableHlo.after ((l2.drop 84).take 12) W (Proc.devRef .tc main_v80) : S256.Idx → EReal)
      = maskRow (W (Proc.devRef .tc main_arg1)) 1#32 0#32 := by
  group_results
  rfl
set_option maxHeartbeats 4000000 in
theorem group8 (W : Valuation τ sig (Elt Ideal)) :
    (StableHlo.after ((l2.drop 96).take 12) W (Proc.devRef .tc main_v90) : S256.Idx → EReal)
      = maskRow (W (Proc.devRef .tc main_arg1)) 1#32 1#32 := by
  group_results
  rfl

set_option maxHeartbeats 4000000 in
/-- The last eleven operations, run from any contents: the nine masks as rows, joined, with two unit axes. -/
theorem tail_v101 (W : Valuation τ sig (Elt Ideal)) :
    (StableHlo.after ((l2.drop 108).take 11) W (Proc.devRef .tc main_v101) : S9x256x1x1.Idx → EReal)
      = broadcastInDim S9x256x1x1 ![0, 1] bcast_S9x256_S9x256x1x1_0_1
          (concatenate S9x256 0
            [⟨S1x256, broadcastInDim S1x256 ![1] bcast_S256_S1x256_1 (W (Proc.devRef .tc main_v10))⟩,
             ⟨S1x256, broadcastInDim S1x256 ![1] bcast_S256_S1x256_1 (W (Proc.devRef .tc main_v20))⟩,
             ⟨S1x256, broadcastInDim S1x256 ![1] bcast_S256_S1x256_1 (W (Proc.devRef .tc main_v30))⟩,
             ⟨S1x256, broadcastInDim S1x256 ![1] bcast_S256_S1x256_1 (W (Proc.devRef .tc main_v40))⟩,
             ⟨S1x256, broadcastInDim S1x256 ![1] bcast_S256_S1x256_1 (W (Proc.devRef .tc main_v50))⟩,
             ⟨S1x256, broadcastInDim S1x256 ![1] bcast_S256_S1x256_1 (W (Proc.devRef .tc main_v60))⟩,
             ⟨S1x256, broadcastInDim S1x256 ![1] bcast_S256_S1x256_1 (W (Proc.devRef .tc main_v70))⟩,
             ⟨S1x256, broadcastInDim S1x256 ![1] bcast_S256_S1x256_1 (W (Proc.devRef .tc main_v80))⟩,
             ⟨S1x256, broadcastInDim S1x256 ![1] bcast_S256_S1x256_1 (W (Proc.devRef .tc main_v90))⟩]
            concatenates_S1x256_S1x256_S1x256_S1x256_S1x256_S1x256_S1x256_S1x256_S1x256_S9x256_d0) := by
  group_results
  rfl

/-! ### Each mask after the first 108 operations -/

/-- The shift words as core `c` was launched with them. -/
abbrev shOf (c : Dev nD) : IVec S256x2 32 := m ((c.tc : Thread nD τ).loc main_arg1)

theorem row0 (c : Dev nD) : StableHlo.after (l2.take 108) (Y m c) (Proc.devRef .tc main_v10) = maskRow (shOf m c) 4294967295#32 4294967295#32 := by
  rw [after_take_eq l2 (0 + 12) 108 (by decide) _ v10_after, after_window l2 0 12 _ v10_after, group0,
    after_take_of_not_written l2 0 _ arg1_not_written, Y_arg1]
theorem row1 (c : Dev nD) : StableHlo.after (l2.take 108) (Y m c) (Proc.devRef .tc main_v20) = maskRow (shOf m c) 4294967295#32 0#32 := by
  rw [after_take_eq l2 (12 + 12) 108 (by decide) _ v20_after, after_window l2 12 12 _ v20_after, group1,
    after_take_of_not_written l2 12 _ arg1_not_written, Y_arg1]
theorem row2 (c : Dev nD) : StableHlo.after (l2.take 108) (Y m c) (Proc.devRef .tc main_v30) = maskRow (shOf m c) 4294967295#32 1#32 := by
  rw [after_take_eq l2 (24 + 12) 108 (by decide) _ v30_after, after_window l2 24 12 _ v30_after, group2,
    after_take_of_not_written l2 24 _ arg1_not_written, Y_arg1]
theorem row3 (c : Dev nD) : StableHlo.after (l2.take 108) (Y m c) (Proc.devRef .tc main_v40) = maskRow (shOf m c) 0#32 4294967295#32 := by
  rw [after_take_eq l2 (36 + 12) 108 (by decide) _ v40_after, after_window l2 36 12 _ v40_after, group3,
    after_take_of_not_written l2 36 _ arg1_not_written, Y_arg1]
theorem row4 (c : Dev nD) : StableHlo.after (l2.take 108) (Y m c) (Proc.devRef .tc main_v50) = maskRow (shOf m c) 0#32 0#32 := by
  rw [after_take_eq l2 (48 + 12) 108 (by decide) _ v50_after, after_window l2 48 12 _ v50_after, group4,
    after_take_of_not_written l2 48 _ arg1_not_written, Y_arg1]
theorem row5 (c : Dev nD) : StableHlo.after (l2.take 108) (Y m c) (Proc.devRef .tc main_v60) = maskRow (shOf m c) 0#32 1#32 := by
  rw [after_take_eq l2 (60 + 12) 108 (by decide) _ v60_after, after_window l2 60 12 _ v60_after, group5,
    after_take_of_not_written l2 60 _ arg1_not_written, Y_arg1]
theorem row6 (c : Dev nD) : StableHlo.after (l2.take 108) (Y m c) (Proc.devRef .tc main_v70) = maskRow (shOf m c) 1#32 4294967295#32 := by
  rw [after_take_eq l2 (72 + 12) 108 (by decide) _ v70_after, after_window l2 72 12 _ v70_after, group6,
    after_take_of_not_written l2 72 _ arg1_not_written, Y_arg1]
theorem row7 (c : Dev nD) : StableHlo.after (l2.take 108) (Y m c) (Proc.devRef .tc main_v80) = maskRow (shOf m c) 1#32 0#32 := by
  rw [after_take_eq l2 (84 + 12) 108 (by decide) _ v80_after, after_window l2 84 12 _ v80_after, group7,
    after_take_of_not_written l2 84 _ arg1_not_written, Y_arg1]
theorem row8 (c : Dev nD) : StableHlo.after (l2.take 108) (Y m c) (Proc.devRef .tc main_v90) = maskRow (shOf m c) 1#32 1#32 := by
  rw [after_take_eq l2 (96 + 12) 108 (by decide) _ v90_after, after_window l2 96 12 _ v90_after, group8,
    after_take_of_not_written l2 96 _ arg1_not_written, Y_arg1]

/-! ## The two windows' arrays -/

set_option maxHeartbeats 4000000 in
/-- The padded array the region reads is the pad of the launched input by the converted zero. -/
theorem padded_eq (c : Dev nD) : (Frm.V m c main_v0 : S32x256x58x58.Idx → EReal)
    = pad S32x256x58x58 ![0, 0, 1, 1] ![0, 0, 1, 1] ![0, 0, 0, 0] (m ((c.tc : Thread nD τ).loc main_arg0) : FVec Ideal S32x256x56x56 .f32)
        (sitofp (F := Ideal) .f32 (constantI S_ 32 0#32)) pads_S32x256x56x56_S32x256x58x58_000_000_110_110 h_S_ := by
  dsimp only [Frm.V]
  simp only [Gen.hostOps0, Gen.hostOps0_1, Gen.hostOps0_2, List.flatten_cons, List.flatten_nil, List.append_nil,
    List.cons_append, List.nil_append]
  after_results
  rfl

/-- The masks the region reads, as the nine rows joined. -/
theorem masks_eq (c : Dev nD) : (Frm.V m c main_v101 : S9x256x1x1.Idx → EReal)
    = broadcastInDim S9x256x1x1 ![0, 1] bcast_S9x256_S9x256x1x1_0_1
        (concatenate S9x256 0 (List.ofFn fun n : Fin 9 => (⟨S1x256, rowOf (shOf m c) n⟩ : (s : Shape) × (s.Idx → EReal)))
          concatenates_S1x256_S1x256_S1x256_S1x256_S1x256_S1x256_S1x256_S1x256_S1x256_S9x256_d0) := by
  rw [V_eq, after_window l2 108 11 _ v101_after, tail_v101, row0, row1, row2, row3, row4, row5, row6, row7, row8]
  rfl

/-- The masks the region reads are the one-hot code of the launched shift words. -/
theorem masks_isCode (c : Dev nD) : Cert.Shift.IsCode (Frm.V m c main_v101) (m ((c.tc : Thread nD τ).loc main_arg1)) := by
  have h := code_of_rows (shOf m c) concatenates_S1x256_S1x256_S1x256_S1x256_S1x256_S1x256_S1x256_S1x256_S1x256_S9x256_d0
  rw [← masks_eq m c] at h
  exact h

end Cert.KernelIdeal.HostVals

end
-- ==== Proof.RefIndexWords.lean ====
/-
  The index words the reference feeds its gather.

  The reference reads the padded array at three index columns. The channel column is the channel number. The row
  column is `(y + 1) + sh[c, 0]` and the column column is `(x + 1) + sh[c, 1]`, each followed by the wrap
  "if the word is negative add the extent". With every shift word one of -1, 0, 1 and `y, x < 56` the sums are
  the naturals `y + off sh[c, 0]` and `x + off sh[c, 1]`, at most 57, so no sum wraps, no word is negative and
  the wrap keeps the word.
-/
import proofs.«427291_j15298673508386_1_alg».proof.Proof.Gen.ReferenceIdeal.Read
import proofs.«427291_j15298673508386_1_alg».proof.Proof.ShiftSpec
import Idealize.ShloMosaic.Lib.StableHlo.Predicate
import Idealize.ShloMosaic.Lib.ValueIdx

noncomputable section

namespace Cert.ReferenceIdeal.RefValue

open Cert.ReferenceIdeal Cert.ReferenceIdeal.Read Idealize.ShloMosaic Idealize.ShloMosaic.ValueIdx

/-! ## Words -/

theorem off_neg : Cert.Shift.off 4294967295#32 = 0 := by simp [Cert.Shift.off]
theorem off_zero : Cert.Shift.off 0#32 = 1 := by simp [Cert.Shift.off]
theorem off_one : Cert.Shift.off 1#32 = 2 := by simp [Cert.Shift.off]

/-- A word below 2³¹ is not negative. -/
theorem not_neg (n : Nat) (hn : n < 2 ^ 31) : IntOp.cmpi .slt (BitVec.ofNat 32 n) 0#32 = 0#1 := by
  apply eq_zero_of_ne_one
  intro h
  have h' := (StableHlo.Predicate.slt_iff_toNat (a := BitVec.ofNat 32 n) (b := 0#32)
    (by rw [BitVec.toNat_ofNat]; omega) (by simp)).mp h
  simp at h'

/-- The wrap keeps a word below 2³¹. -/
theorem wrap_small (n : Nat) (hn : n < 2 ^ 31) (A : BitVec 32) :
    Scalar.select (IntOp.cmpi .slt (BitVec.ofNat 32 n) 0#32) A (BitVec.ofNat 32 n) = BitVec.ofNat 32 n := by
  rw [not_neg n hn, select_zero]

theorem addi_eq (a b : BitVec 32) : IntOp.addi a b = a + b := rfl

/-- `(y + 1) + s` is the natural `y + k` when `s + 1` is `k` modulo 2³² and `k` is at most 2: below 56 nothing wraps. -/
theorem moved_word_of (y : Fin 56) (s : BitVec 32) (k : Nat) (hk : k ≤ 2) (hs : (s.toNat + 1) % 2 ^ 32 = k) :
    IntOp.addi (IntOp.addi (BitVec.ofNat 32 y.val) 1#32) s = BitVec.ofNat 32 (y.val + k) := by
  have hy := y.isLt
  have hlt := s.isLt
  rw [addi_eq, addi_eq]
  apply BitVec.eq_of_toNat_eq
  simp only [BitVec.toNat_add, BitVec.toNat_ofNat]
  omega

theorem succ_neg : ((4294967295#32 : BitVec 32).toNat + 1) % 2 ^ 32 = 0 := by simp
theorem succ_zero : ((0#32 : BitVec 32).toNat + 1) % 2 ^ 32 = 1 := by simp
theorem succ_one : ((1#32 : BitVec 32).toNat + 1) % 2 ^ 32 = 2 := by simp

/-- `(y + 1) + s` for a shift word `s` among -1, 0, 1 is the natural `y + off s`. -/
theorem moved_word (y : Fin 56) (s : BitVec 32) (hs : s = 4294967295#32 ∨ s = 0#32 ∨ s = 1#32) :
    IntOp.addi (IntOp.addi (BitVec.ofNat 32 y.val) 1#32) s = BitVec.ofNat 32 (y.val + Cert.Shift.off s) := by
  rcases hs with rfl | rfl | rfl
  · rw [off_neg]; exact moved_word_of y _ 0 (by omega) succ_neg
  · rw [off_zero]; exact moved_word_of y _ 1 (by omega) succ_zero
  · rw [off_one]; exact moved_word_of y _ 2 (by omega) succ_one

/-- The wrapped moved word is the moved word. -/
theorem wrapped_moved_word (y : Fin 56) (s : BitVec 32) (hs : s = 4294967295#32 ∨ s = 0#32 ∨ s = 1#32) (A : BitVec 32) :
    Scalar.select (IntOp.cmpi .slt (IntOp.addi (IntOp.addi (BitVec.ofNat 32 y.val) 1#32) s) 0#32) A
        (IntOp.addi (IntOp.addi (BitVec.ofNat 32 y.val) 1#32) s)
      = BitVec.ofNat 32 (y.val + Cert.Shift.off s) := by
  rw [moved_word y s hs]
  exact wrap_small _ (by have := y.isLt; have := Cert.Shift.off_le s; omega) A

/-! ## The channel column -/

theorem chan_word (c : Fin 256) (y x : Fin 56) :
    Read.val_main_v43 (F := Ideal) (ix4 (n0 := 256) (n1 := 56) (n2 := 56) (n3 := 1) c y x 0) = BitVec.ofNat 32 c.val := by
  rw [val_main_v43_apply, val_main_v40_apply, val_main_v29_apply, val_main_v26_apply, val_main_v22_apply,
    val_main_v25_apply, val_main_v21_apply, val_main_c_2_apply]
  exact wrap_small c.val (by have := c.isLt; omega) _

/-! ## The row and column columns -/

/-- The row sum before the wrap, at channel `c` and row `y`. -/
theorem row_sum (sh : IVec S256x2 32) (c : Fin 256) (y : Fin 56) :
    Read.val_main_v12 (F := Ideal) sh (ix2 (n0 := 256) (n1 := 56) c y)
      = IntOp.addi (IntOp.addi (BitVec.ofNat 32 y.val) 1#32) (sh (ix2 (n0 := 256) (n1 := 2) c 0)) := by
  rw [val_main_v12_apply, val_main_v10_apply, val_main_v8_apply, val_main_v6_apply, val_main_v5_apply,
    val_main_v7_apply, val_main_c_0_apply, val_main_v11_apply, val_main_v9_apply, val_main_v2_apply, val_main_v1_apply]
  have hidx : idx_main_v1 (idx_main_v2 (idx_main_v9 (idx_main_v11 (ix2 (n0 := 256) (n1 := 56) c y))))
      = ix2 (n0 := 256) (n1 := 2) c 0 := by
    funext a
    match a with
    | ⟨0, _⟩ => exact Fin.ext (Nat.div_one _)
    | ⟨1, _⟩ => rfl
  rw [hidx]

/-- The column sum before the wrap, at channel `c` and column `x`. -/
theorem col_sum (sh : IVec S256x2 32) (c : Fin 256) (x : Fin 56) :
    Read.val_main_v20 (F := Ideal) sh (ix2 (n0 := 256) (n1 := 56) c x)
      = IntOp.addi (IntOp.addi (BitVec.ofNat 32 x.val) 1#32) (sh (ix2 (n0 := 256) (n1 := 2) c 1)) := by
  rw [val_main_v20_apply, val_main_v18_apply, val_main_v16_apply, val_main_v14_apply, val_main_v13_apply,
    val_main_v15_apply, val_main_c_1_apply, val_main_v19_apply, val_main_v17_apply, val_main_v4_apply, val_main_v3_apply]
  have hidx : idx_main_v3 (idx_main_v4 (idx_main_v17 (idx_main_v19 (ix2 (n0 := 256) (n1 := 56) c x))))
      = ix2 (n0 := 256) (n1 := 2) c 1 := by
    funext a
    match a with
    | ⟨0, _⟩ => exact Fin.ext (Nat.div_one _)
    | ⟨1, _⟩ => rfl
  rw [hidx]

theorem row_word (sh : IVec S256x2 32) (hsh : Cert.Shift.InRange sh) (c : Fin 256) (y x : Fin 56) :
    Read.val_main_v44 (F := Ideal) sh (ix4 (n0 := 256) (n1 := 56) (n2 := 56) (n3 := 1) c y x 0)
      = BitVec.ofNat 32 (y.val + Cert.Shift.off (sh (ix2 (n0 := 256) (n1 := 2) c 0))) := by
  rw [val_main_v44_apply, val_main_v41_apply, val_main_v34_apply, val_main_v31_apply, val_main_v23_apply,
    val_main_v30_apply, val_main_c_4_apply]
  have hidx : idx_main_v23 (idx_main_v41 (idx_main_v44 (ix4 (n0 := 256) (n1 := 56) (n2 := 56) (n3 := 1) c y x 0)))
      = ix2 (n0 := 256) (n1 := 56) c y := by
    funext a
    match a with
    | ⟨0, _⟩ => rfl
    | ⟨1, _⟩ => rfl
  rw [hidx, row_sum]
  exact wrapped_moved_word y _ (hsh _) _

theorem col_word (sh : IVec S256x2 32) (hsh : Cert.Shift.InRange sh) (c : Fin 256) (y x : Fin 56) :
    Read.val_main_v45 (F := Ideal) sh (ix4 (n0 := 256) (n1 := 56) (n2 := 56) (n3 := 1) c y x 0)
      = BitVec.ofNat 32 (x.val + Cert.Shift.off (sh (ix2 (n0 := 256) (n1 := 2) c 1))) := by
  rw [val_main_v45_apply, val_main_v42_apply, val_main_v39_apply, val_main_v36_apply, val_main_v24_apply,
    val_main_v35_apply, val_main_c_6_apply]
  have hidx : idx_main_v24 (idx_main_v42 (idx_main_v45 (ix4 (n0 := 256) (n1 := 56) (n2 := 56) (n3 := 1) c y x 0)))
      = ix2 (n0 := 256) (n1 := 56) c x := by
    funext a
    match a with
    | ⟨0, _⟩ => rfl
    | ⟨1, _⟩ => rfl
  rw [hidx, col_sum]
  exact wrapped_moved_word x _ (hsh _) _

end Cert.ReferenceIdeal.RefValue

end
-- ==== Proof.RefShift.lean ====
/-
  The reference's result is the shifted padded array.

  The reference gathers from the padded array xp : [32, 256, 58, 58] with start indices idx : [256, 56, 56, 3]: the
  result at [n, c, y, x] is xp at [n, i0, i1, i2], where i0, i1, i2 are the three components idx[c, y, x, 0..2] read as
  signed integers and clamped into the axes 1, 2, 3 of xp (the batch axis 0 is the one offset axis, taken whole; the
  other three axes are collapsed, with slice size 1). The start indices are three arrays with a unit last axis joined
  along it: the channel number c, the row y + 1 + dy_c and the column x + 1 + dx_c, as 32-bit words. With every shift
  word among -1, 0, 1 these are c ≤ 255 and numbers at most 57, so the signed reading gives the numbers back and the
  clamp changes none of them: the gather reads xp at [n, c, y + 1 + dy_c, x + 1 + dx_c], which is the shifted array.

  Three steps: the gather read at an index, for any operand and any start indices; the join read at an index, for any
  three pieces; and the statement, from the three index words.
-/
import proofs.«427291_j15298673508386_1_alg».proof.Proof.Gen.ReferenceIdeal.Read
import proofs.«427291_j15298673508386_1_alg».proof.Proof.ShiftSpec
import proofs.«427291_j15298673508386_1_alg».proof.Proof.RefIndexWords
import Idealize.ShloMosaic.Lib.ValueIdx
import Idealize.ShloMosaic.Lib.Pipeline.Value
import Idealize.ShloMosaic.Lib.WordArith

noncomputable section

namespace Cert.ReferenceIdeal.RefValue

open Cert.ReferenceIdeal Cert.ReferenceIdeal.Gen Cert.ReferenceIdeal.Read
open Idealize.ShloMosaic Idealize.ShloMosaic.ValueIdx

/-- The gather's dimension numbers. -/
abbrev refGatherDims : GatherDims S32x256x58x58 S256x56x56x3 S32x256x56x56 :=
  gather_S32x256x58x58_S256x56x56x3_S32x256x56x56_0_123_n_n_123_3_32111

/-- On a collapsed axis a, the k-th of the start index map, the operand coordinate is the start index's component k,
    read signed and clamped so that the slice of size one fits; the offset coordinate there is zero. -/
theorem collapsed_coord {w : Nat} (idx : IVec S256x56x56x3 w) (n : Fin 32) (c : Fin 256) (y x : Fin 56)
    (a : Fin 4) (k : Fin 3) (h1 : a ∈ refGatherDims.startIndexMap) (hc : a ∈ refGatherDims.collapsedSliceDims)
    (hk : List.idxOf a refGatherDims.startIndexMap = k.val) :
    refGatherDims.start (ix4 (n0 := 32) (n1 := 256) (n2 := 56) (n3 := 56) n c y x) idx a
        + refGatherDims.offCoord (ix4 (n0 := 32) (n1 := 256) (n2 := 56) (n3 := 56) n c y x) a
      = min (idx (ix4 (n0 := 256) (n1 := 56) (n2 := 56) (n3 := 3) c y x k)).toInt.toNat
          (S32x256x58x58.size a - refGatherDims.sliceSizes a) := by
  rw [GatherDims.offCoord_eq_zero _ _ _ (fun h => ((GatherDims.mem_sKept _ _).mp h).1 hc), Nat.add_zero]
  unfold GatherDims.start
  rw [dif_pos h1]
  have hsi : refGatherDims.siIdx (ix4 (n0 := 32) (n1 := 256) (n2 := 56) (n3 := 56) n c y x)
      ⟨List.idxOf a refGatherDims.startIndexMap, List.idxOf_lt_length_iff.2 h1⟩
      = ix4 (n0 := 256) (n1 := 56) (n2 := 56) (n3 := 3) c y x k := by
    funext b; refine Fin.ext ?_
    match b with
    | ⟨0, _⟩ => rfl
    | ⟨1, _⟩ => rfl
    | ⟨2, _⟩ => rfl
    | ⟨3, _⟩ => exact hk
  rw [hsi]

/-- The gather read at an index: the batch coordinate is kept, and each of the three collapsed axes is read at the
    start index's component for it, signed and clamped into the axis. -/
theorem gather_at {α : Type} {w : Nat} (xp : S32x256x58x58.Idx → α) (idx : IVec S256x56x56x3 w)
    (n : Fin 32) (c : Fin 256) (y x : Fin 56) :
    Host.gather refGatherDims xp idx (ix4 (n0 := 32) (n1 := 256) (n2 := 56) (n3 := 56) n c y x)
      = xp (ix4 (n0 := 32) (n1 := 256) (n2 := 58) (n3 := 58) n
          ⟨min (idx (ix4 (n0 := 256) (n1 := 56) (n2 := 56) (n3 := 3) c y x 0)).toInt.toNat 255, by omega⟩
          ⟨min (idx (ix4 (n0 := 256) (n1 := 56) (n2 := 56) (n3 := 3) c y x 1)).toInt.toNat 57, by omega⟩
          ⟨min (idx (ix4 (n0 := 256) (n1 := 56) (n2 := 56) (n3 := 3) c y x 2)).toInt.toNat 57, by omega⟩) := by
  unfold Host.gather
  congr 1
  funext a
  refine Fin.ext ?_
  show refGatherDims.start (ix4 n c y x) idx a + refGatherDims.batchCoord (ix4 n c y x) a + refGatherDims.offCoord (ix4 n c y x) a = _
  rw [GatherDims.batchCoord_eq_zero _ _ _ List.not_mem_nil, Nat.add_zero]
  match a with
  | ⟨0, _⟩ =>
    have h0 : (⟨0, by decide⟩ : Fin 4) ∉ refGatherDims.startIndexMap := by decide
    unfold GatherDims.start
    rw [dif_neg h0, Nat.zero_add]
    rfl
  | ⟨1, _⟩ => exact collapsed_coord idx n c y x ⟨1, by decide⟩ 0 (by decide) (by decide) (by decide)
  | ⟨2, _⟩ => exact collapsed_coord idx n c y x ⟨2, by decide⟩ 1 (by decide) (by decide) (by decide)
  | ⟨3, _⟩ => exact collapsed_coord idx n c y x ⟨3, by decide⟩ 2 (by decide) (by decide) (by decide)

/-- Three arrays with a unit last axis joined along it: component k of the result at [c, y, x] is the k-th array
    at [c, y, x, 0]. -/
theorem concat3_at {α : Type} (x0 x1 x2 : S256x56x56x1.Idx → α)
    (h : Shape.Concatenates (([⟨S256x56x56x1, x0⟩, ⟨S256x56x56x1, x1⟩, ⟨S256x56x56x1, x2⟩] :
      List ((s : Shape) × (s.Idx → α))).map (·.1)) S256x56x56x3 3) (c : Fin 256) (y x : Fin 56) :
    concatenate S256x56x56x3 3 [⟨S256x56x56x1, x0⟩, ⟨S256x56x56x1, x1⟩, ⟨S256x56x56x1, x2⟩] h
        (ix4 (n0 := 256) (n1 := 56) (n2 := 56) (n3 := 3) c y x 0)
      = x0 (ix4 (n0 := 256) (n1 := 56) (n2 := 56) (n3 := 1) c y x 0)
    ∧ concatenate S256x56x56x3 3 [⟨S256x56x56x1, x0⟩, ⟨S256x56x56x1, x1⟩, ⟨S256x56x56x1, x2⟩] h
        (ix4 (n0 := 256) (n1 := 56) (n2 := 56) (n3 := 3) c y x 1)
      = x1 (ix4 (n0 := 256) (n1 := 56) (n2 := 56) (n3 := 1) c y x 0)
    ∧ concatenate S256x56x56x3 3 [⟨S256x56x56x1, x0⟩, ⟨S256x56x56x1, x1⟩, ⟨S256x56x56x1, x2⟩] h
        (ix4 (n0 := 256) (n1 := 56) (n2 := 56) (n3 := 3) c y x 2)
      = x2 (ix4 (n0 := 256) (n1 := 56) (n2 := 56) (n3 := 1) c y x 0) := by
  refine ⟨?_, ?_, ?_⟩
  ·
    exact concatenate_apply_piece (t := S256x56x56x3) (3 : Fin 4) [⟨S256x56x56x1, x0⟩, ⟨S256x56x56x1, x1⟩, ⟨S256x56x56x1, x2⟩] h _
      0 (by simp) S256x56x56x1 x0 rfl rfl 0 rfl (ix4 (n0 := 256) (n1 := 56) (n2 := 56) (n3 := 1) c y x 0)
      (fun b hb => match b with
        | ⟨0, _⟩ => rfl
        | ⟨1, _⟩ => rfl
        | ⟨2, _⟩ => rfl
        | ⟨3, _⟩ => absurd rfl hb) rfl
  ·
    exact concatenate_apply_piece (t := S256x56x56x3) (3 : Fin 4) [⟨S256x56x56x1, x0⟩, ⟨S256x56x56x1, x1⟩, ⟨S256x56x56x1, x2⟩] h _
      1 (by simp) S256x56x56x1 x1 rfl rfl 1 rfl (ix4 (n0 := 256) (n1 := 56) (n2 := 56) (n3 := 1) c y x 0)
      (fun b hb => match b with
        | ⟨0, _⟩ => rfl
        | ⟨1, _⟩ => rfl
        | ⟨2, _⟩ => rfl
        | ⟨3, _⟩ => absurd rfl hb) rfl
  ·
    exact concatenate_apply_piece (t := S256x56x56x3) (3 : Fin 4) [⟨S256x56x56x1, x0⟩, ⟨S256x56x56x1, x1⟩, ⟨S256x56x56x1, x2⟩] h _
      2 (by simp) S256x56x56x1 x2 rfl rfl 2 rfl (ix4 (n0 := 256) (n1 := 56) (n2 := 56) (n3 := 1) c y x 0)
      (fun b hb => match b with
        | ⟨0, _⟩ => rfl
        | ⟨1, _⟩ => rfl
        | ⟨2, _⟩ => rfl
        | ⟨3, _⟩ => absurd rfl hb) rfl

/-- A number at most m, below 2^31, held as a 32-bit word and read signed and clamped into [0, m], is itself. -/
theorem clamp_ofNat_word (v m : Nat) (hv : v ≤ m) (hm : m < 2 ^ 31) : min (BitVec.ofNat 32 v).toInt.toNat m = v := by
  rw [WordArith.toInt_ofNat_small v (by omega), Int.toNat_natCast]
  exact Nat.min_eq_left hv

/-- The reference's result is the shifted padded array: the gather reads the padded array at the channel itself and
    at the row and the column moved by one plus the channel's shift words, none of which the clamp changes. -/
theorem ref_eq (x : FVec Ideal S32x256x56x56 .f32) (sh : IVec S256x2 32) (hsh : Cert.Shift.InRange sh) :
    Read.val_main_v47 (F := Ideal) x sh = Cert.Shift.shifted (Read.val_main_v0 (F := Ideal) x) sh := by
  funext j
  obtain ⟨n, c, y, x', rfl⟩ : ∃ (n : Fin 32) (c : Fin 256) (y x' : Fin 56),
      j = ix4 (n0 := 32) (n1 := 256) (n2 := 56) (n3 := 56) n c y x' := ⟨j 0, j 1, j 2, j 3, eq_ix4 j⟩
  unfold Read.val_main_v47 Cert.Shift.shifted
  generalize Read.val_main_v0 (F := Ideal) x = xp
  obtain ⟨e0, e1, e2⟩ := concat3_at (Read.val_main_v43 (F := Ideal)) (Read.val_main_v44 (F := Ideal) sh)
    (Read.val_main_v45 (F := Ideal) sh) concatenates_S256x56x56x1_S256x56x56x1_S256x56x56x1_S256x56x56x3_d3 c y x'
  have w0 : Read.val_main_v46 (F := Ideal) sh (ix4 (n0 := 256) (n1 := 56) (n2 := 56) (n3 := 3) c y x' 0)
      = BitVec.ofNat 32 c.val := e0.trans (chan_word c y x')
  have w1 : Read.val_main_v46 (F := Ideal) sh (ix4 (n0 := 256) (n1 := 56) (n2 := 56) (n3 := 3) c y x' 1)
      = BitVec.ofNat 32 (y.val + Cert.Shift.off (sh (ix2 (n0 := 256) (n1 := 2) c 0))) := e1.trans (row_word sh hsh c y x')
  have w2 : Read.val_main_v46 (F := Ideal) sh (ix4 (n0 := 256) (n1 := 56) (n2 := 56) (n3 := 3) c y x' 2)
      = BitVec.ofNat 32 (x'.val + Cert.Shift.off (sh (ix2 (n0 := 256) (n1 := 2) c 1))) := e2.trans (col_word sh hsh c y x')
  refine (gather_at xp (Read.val_main_v46 (F := Ideal) sh) n c y x').trans ?_
  congr 1
  have hr := Cert.Shift.off_le (sh (ix2 (n0 := 256) (n1 := 2) c 0))
  have hc := Cert.Shift.off_le (sh (ix2 (n0 := 256) (n1 := 2) c 1))
  funext a
  refine Fin.ext ?_
  match a with
  | ⟨0, _⟩ => rfl
  | ⟨1, _⟩ =>
    show min (Read.val_main_v46 (F := Ideal) sh (ix4 (n0 := 256) (n1 := 56) (n2 := 56) (n3 := 3) c y x' 0)).toInt.toNat 255 = c.val
    rw [w0]; exact clamp_ofNat_word _ _ (by omega) (by norm_num)
  | ⟨2, _⟩ =>
    show min (Read.val_main_v46 (F := Ideal) sh (ix4 (n0 := 256) (n1 := 56) (n2 := 56) (n3 := 3) c y x' 1)).toInt.toNat 57
      = y.val + Cert.Shift.off (sh (ix2 (n0 := 256) (n1 := 2) c 0))
    rw [w1]; exact clamp_ofNat_word _ _ (by omega) (by norm_num)
  | ⟨3, _⟩ =>
    show min (Read.val_main_v46 (F := Ideal) sh (ix4 (n0 := 256) (n1 := 56) (n2 := 56) (n3 := 3) c y x' 2)).toInt.toNat 57
      = x'.val + Cert.Shift.off (sh (ix2 (n0 := 256) (n1 := 2) c 1))
    rw [w2]; exact clamp_ofNat_word _ _ (by omega) (by norm_num)

end Cert.ReferenceIdeal.RefValue

end
-- ==== Proof.lean ====
/-
  A per-channel spatial shift with zero padding, computed two ways, and that the two agree on the extended reals.

  The input `x : [32, 256, 56, 56]` is padded by one zero on each side of its two spatial axes. Channel `c` carries
  two shift words `(dy, dx)`, each -1, 0 or 1 under the precondition, and the result at `[n, c, y, x]` is the padded
  array at `[n, c, y + 1 + dy, x + 1 + dx]`.
  The reference computes the three index columns (channel, row, column) and gathers; under the precondition no index
  wraps or is clamped, so the gather reads exactly that entry.
  The kernel computes, per channel, nine 0/1 masks, one per pair of shifts in {-1, 0, 1}², mask `i` set exactly when
  the channel's pair is the `i`-th; at each grid point it sums the nine slices of the padded block at the nine pairs
  of offsets, each times its mask. Eight of the nine products are products with zero, so the sum is the one slice the
  channel's pair selects: the same entry. No finiteness is used: on the extended reals a product with zero is zero and
  zero is neutral for the sum.
  Both programs run to the end and leave their arguments unchanged whatever the shift words are; the kernel's idealized
  form is its own text (no rewrite was applied), so there is nothing to preserve.
-/
import proofs.«427291_j15298673508386_1_alg».proof.Defs
import proofs.«427291_j15298673508386_1_alg».proof.Proof.Gen.Kernel
import proofs.«427291_j15298673508386_1_alg».proof.Proof.Gen.KernelIdeal
import proofs.«427291_j15298673508386_1_alg».proof.Proof.Gen.ReferenceIdeal
import proofs.«427291_j15298673508386_1_alg».proof.Proof.Gen.Pre_finite_inputs
import proofs.«427291_j15298673508386_1_alg».proof.Proof.Gen.ReferenceIdeal.Run
import proofs.«427291_j15298673508386_1_alg».proof.Proof.Gen.ReferenceIdeal.Read
import proofs.«427291_j15298673508386_1_alg».proof.Proof.ShiftFrame
import proofs.«427291_j15298673508386_1_alg».proof.Proof.ShiftFrameBits
import proofs.«427291_j15298673508386_1_alg».proof.Proof.ShiftAlgebra
import proofs.«427291_j15298673508386_1_alg».proof.Proof.PreRange
import proofs.«427291_j15298673508386_1_alg».proof.Proof.KernelValue
import proofs.«427291_j15298673508386_1_alg».proof.Proof.KernelHost
import proofs.«427291_j15298673508386_1_alg».proof.Proof.RefShift
import Idealize.ShloMosaic.Adequacy
import Idealize.ShloMosaic.Init

noncomputable section

namespace Cert.Proof

open Idealize.ShloMosaic Idealize.ShloMosaic.TcCoe Idealize.SL.Sem

/-! ## The three frames and the idealization -/

theorem frame_k : Cert.frame_Kernel := fun m ρ _ => Cert.Kernel.Frm.frame m ρ
theorem frame_ki : Cert.frame_KernelIdeal := fun m ρ _ => Cert.KernelIdeal.Frm.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No rewrite was applied to the kernel's text. -/
theorem preserves : Cert.preserves_Kernel_KernelIdeal := trivial

/-! ## The kernel's run ends at the shifted padded array -/

section
open Cert.KernelIdeal
variable (m : (ℓ : Loc nD τ sig) → Buf (Elt Ideal) ℓ) (ρ : Dev nD → PrngReg)

/-- The padded array the region finds is the reference's padding of the same input: the same pad by the same zero. -/
theorem padded_same (c : Dev nD) : (Frm.V m c main_v0 : Cert.Shift.SP.Idx → EReal)
    = Cert.ReferenceIdeal.Read.val_main_v0 (F := Ideal) (m ((c.tc : Thread nD τ).loc main_arg0)) :=
  (HostVals.padded_eq m c).trans rfl

/-- With every shift word in range, the kernel's result array ends at the shifted padded array: block by block it
    is the nine-fold masked sum, the masks are the one-hot code of the shift words, and the one-hot sum is the shift. -/
theorem kernel_run (hsh : ∀ c : Dev nD, Cert.Shift.InRange (m ((c.tc : Thread nD τ).loc main_arg1))) :
    θ_run defs (onTc (τ := τ) (main (F := Ideal))) ⟨m, fun _ => 0, ρ⟩ (fun r => ∀ c : Dev nD,
      r.2.mem ((c.tc : Thread nD τ).loc main_v102)
        = Cert.Shift.shifted (Cert.ReferenceIdeal.Read.val_main_v0 (F := Ideal) (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (by
      rw [KValue.result_eq, Cert.Shift.ninefold_eq_shifted _ _ _ (hsh c) (HostVals.masks_isCode m c), padded_same]), (h c).2⟩)
    (Frm.run_named m ρ)
end

/-! ## The two programs agree -/

/-- From memories agreeing on the arguments, under the precondition, both programs end with the shifted padded array
    of the common input: the kernel by `kernel_run`, the reference by its generated run read as the shift. -/
theorem algebraic : Cert.algebraic_KernelIdeal_ReferenceIdeal := by
  intro m ρ m' ρ' hpre hagree
  have hsh : ∀ c : Dev Cert.KernelIdeal.nD, Cert.Shift.InRange (m ((c.tc : Thread Cert.KernelIdeal.nD Cert.KernelIdeal.τ).loc Cert.KernelIdeal.main_arg1)) :=
    fun c => Cert.Shift.inRange_of_pre _ _ (hpre c)
  refine ⟨_, kernel_run m ρ hsh, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2]
  exact Cert.ReferenceIdeal.RefValue.ref_eq _ _ (hsh c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
